-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S2048 : Shape := ⟨1, ![2048]⟩
abbrev S2048x2 : Shape := ⟨2, ![2048, 2]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S8x1024x4096 .f32) (main_arg1 : FVec F S2048 .f32) (main_arg2 : IVec S2048x2 32) (main_arg3 : IVec S2048x2 32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_c_2 : IVec S_ 32 := constantI S_ 32 4294963200#32
  let main_v9 : IVec S2048x2 32 := broadcastInDim S2048x2 ![] bcast_S_S2048x2 main_c_2
  let main_v10 : IVec S2048x2 1 := cmpi .sge main_arg2 main_v9
  let main_c_3 : IVec S_ 32 := constantI S_ 32 4096#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S8x1024x4096 : Shape := ⟨3, ![8, 1024, 4096]⟩
abbrev S2048 : Shape := ⟨1, ![2048]⟩
abbrev S2048x2 : Shape := ⟨2, ![2048, 2]⟩
abbrev S2048x1 : Shape := ⟨2, ![2048, 1]⟩
abbrev S4096 : Shape := ⟨1, ![4096]⟩
abbrev S_ : Shape := ⟨0, ![]⟩
abbrev S4096x4096 : Shape := ⟨2, ![4096, 4096]⟩
abbrev S4096x1 : Shape := ⟨2, ![4096, 1]⟩
abbrev S4096x2 : Shape := ⟨2, ![4096, 2]⟩
abbrev S8192x4096 : Shape := ⟨2, ![8192, 4096]⟩
abbrev S1024x1024 : Shape := ⟨2, ![1024, 1024]⟩

abbrev nBuf : Space → Nat
  | .hbm => 141
  | .vmem => 7
  | .smem => 0
  | _ => 0

abbrev hbmTy0_0 (i : Nat) : BufTy := match i % 128 with
  | 0 => ⟨S8x1024x4096, .f32⟩
  | 1 => ⟨S2048, .f32⟩
  | 2 => ⟨S2048x2, .i32⟩
  | 3 => ⟨S2048x2, .i32⟩
  | 4 => ⟨S2048, .f32⟩
  | 5 => ⟨S2048, .f32⟩
  | 6 => ⟨S2048x1, .i32⟩
  | 7 => ⟨S2048, .i32⟩
  | 8 => ⟨S2048x1, .i32⟩
  | 9 => ⟨S2048, .i32⟩
  | 10 => ⟨S4096, .i32⟩
  | 11 => ⟨S_, .f32⟩
  | 12 => ⟨S4096, .f32⟩
  | 13 => ⟨S_, .i32⟩
  | 14 => ⟨S4096, .i32⟩
  | 15 => ⟨S_, .f32⟩
  | 16 => ⟨S4096, .f32⟩
  | 17 => ⟨S2048x1, .i32⟩
  | 18 => ⟨S2048, .i32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S4096, .i32⟩
  | 28 => ⟨S2048x1, .i32⟩
  | 29 => ⟨S2048, .i32⟩
  | 30 => ⟨S_, .i32⟩
  | 31 => ⟨S2048, .i32⟩
  | 32 => ⟨S2048, .i1⟩
  | 33 => ⟨S_, .i32⟩
  | 34 => ⟨S2048, .i32⟩
  | 35 => ⟨S2048, .i32⟩
  | 36 => ⟨S2048, .i32⟩
  | 37 => ⟨S2048x1, .i32⟩
  | 38 => ⟨S4096, .i32⟩
  | 39 => ⟨S2048x1, .i32⟩
  | 40 => ⟨S2048, .i32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S4096, .i32⟩
  | 50 => ⟨S2048x1, .i32⟩
  | 51 => ⟨S2048, .i32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S2048x1, .i32⟩
  | 60 => ⟨S4096, .i32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S2048x1, .i32⟩
  | 69 => ⟨S4096, .f32⟩
  | 70 => ⟨S_, .i32⟩
  | 71 => ⟨S2048, .i32⟩
  | 72 => ⟨S2048, .i1⟩
  | 73 => ⟨S_, .i32⟩
  | 74 => ⟨S2048, .i32⟩
  | 75 => ⟨S2048, .i32⟩
  | 76 => ⟨S2048, .i32⟩
  | 77 => ⟨S2048x1, .i32⟩
  | 78 => ⟨S4096, .f32⟩
  | 79 => ⟨S2048, .f32⟩
  | 80 => ⟨S_, .i32⟩
  | 81 => ⟨S2048, .i32⟩
  | 82 => ⟨S2048, .i1⟩
  | 83 => ⟨S_, .i32⟩
  | 84 => ⟨S2048, .i32⟩
  | 85 => ⟨S2048, .i32⟩
  | 86 => ⟨S2048, .i32⟩
  | 87 => ⟨S2048x1, .i32⟩
  | 88 => ⟨S4096, .f32⟩
  | 89 => ⟨S_, .i32⟩
  | 90 => ⟨S2048, .i32⟩
  | 91 => ⟨S2048, .i1⟩
  | 92 => ⟨S_, .i32⟩
  | 93 => ⟨S2048, .i32⟩
  | 94 => ⟨S2048, .i32⟩
  | 95 => ⟨S2048, .i32⟩
  | 96 => ⟨S2048x1, .i32⟩
  | 97 => ⟨S4096, .f32⟩
  | 98 => ⟨S4096, .i32⟩
  | 99 => ⟨S_, .f32⟩
  | 100 => ⟨S4096x4096, .f32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x1, .i32⟩
  | 117 => ⟨S4096x2, .i32⟩
  | 118 => ⟨S4096x4096, .f32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S_, .i32⟩
  | 127 => ⟨S4096, .i32⟩
  | _ => ⟨S8x1024x4096, .f32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096x1, .i32⟩
  | 7 => ⟨S4096x2, .i32⟩
  | 8 => ⟨S4096x4096, .f32⟩
  | 9 => ⟨S4096x4096, .bf16⟩
  | 10 => ⟨S8192x4096, .f32⟩
  | 11 => ⟨S8192x4096, .f32⟩
  | 12 => ⟨S8x1024x4096, .f32⟩
  | _ => ⟨S8x1024x4096, .f32⟩

abbrev hbmTy (i : Nat) : BufTy := match i / 128 with
  | 0 => hbmTy0_0 i
  | 1 => hbmTy0_1 i
  | _ => ⟨S8x1024x4096, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_11 : Ref sig .tc := ⟨.hbm, 70, rfl⟩
abbrev main_v53 : Ref sig .tc := ⟨.hbm, 71, rfl⟩
abbrev main_v54 : Ref sig .tc := ⟨.hbm, 72, rfl⟩
abbrev main_c_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_13 : Ref sig .tc := ⟨.hbm, 80, rfl⟩
abbrev main_v61 : Ref sig .tc := ⟨.hbm, 81, rfl⟩
abbrev main_v62 : Ref sig .tc := ⟨.hbm, 82, rfl⟩
abbrev main_c_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_15 : Ref sig .tc := ⟨.hbm, 89, rfl⟩
abbrev main_v68 : Ref sig .tc := ⟨.hbm, 90, rfl⟩
abbrev main_v69 : Ref sig .tc := ⟨.hbm, 91, rfl⟩
abbrev main_c_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_c_18 : Ref sig .tc := ⟨.hbm, 101, rfl⟩
abbrev main_v77 : Ref sig .tc := ⟨.hbm, 102, rfl⟩
abbrev main_v78 : Ref sig .tc := ⟨.hbm, 103, rfl⟩
abbrev main_c_19 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_20 : Ref sig .tc := ⟨.hbm, 108, rfl⟩
abbrev main_v82 : Ref sig .tc := ⟨.hbm, 109, rfl⟩
abbrev main_v83 : Ref sig .tc := ⟨.hbm, 110, rfl⟩
abbrev main_c_21 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_22 : Ref sig .tc := ⟨.hbm, 119, rfl⟩
abbrev main_v91 : Ref sig .tc := ⟨.hbm, 120, rfl⟩
abbrev main_v92 : Ref sig .tc := ⟨.hbm, 121, rfl⟩
abbrev main_c_23 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_24 : Ref sig .tc := ⟨.hbm, 126, rfl⟩
abbrev main_v96 : Ref sig .tc := ⟨.hbm, 127, rfl⟩
abbrev main_v97 : Ref sig .tc := ⟨.hbm, 128, rfl⟩
abbrev main_c_25 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S4096 : S_.BroadcastsInDim S4096 (![] : Fin 0 → Fin S4096.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S4096x4096 : S_.BroadcastsInDim S4096x4096 (![] : Fin 0 → Fin S4096x4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bitsLt_bf16_f32 : FTy.bits .bf16 < FTy.bits .f32
  shapeCasts_S8x1024x4096_S8192x4096 : S8x1024x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S8x1024x4096 : S8192x4096.ShapeCasts S8x1024x4096
  scatter_S4096_S2048x1_S2048_n_0_0_1_wf : ScatterDims.WF S4096 S2048x1 S2048 [] [0] [0] 1
  scatter_S4096x4096_S4096x2_S4096_n_01_01_1_wf : ScatterDims.WF S4096x4096 S4096x2 S4096 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v106) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v105) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v107) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S2048 : Shape := ⟨1, ![2048]⟩
abbrev S2048x2 : Shape := ⟨2, ![2048, 2]⟩
abbrev S2048x1 : Shape := ⟨2, ![2048, 1]⟩
abbrev S_ : Shape := ⟨0, ![]⟩
abbrev S8x1024x2048 : Shape := ⟨3, ![8, 1024, 2048]⟩
abbrev S1x1x2048 : Shape := ⟨3, ![1, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S2048, .f32⟩
  | .hbm, ⟨2, _⟩ => ⟨S2048x2, .i32⟩
  | .hbm, ⟨3, _⟩ => ⟨S2048x2, .i32⟩
  | .hbm, ⟨4, _⟩ => ⟨S2048, .f32⟩
  | .hbm, ⟨5, _⟩ => ⟨S2048, .f32⟩
  | .hbm, ⟨6, _⟩ => ⟨S2048x1, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S8x1024x2048, .f32⟩
  | .hbm, ⟨17, _⟩ => ⟨S2048x1, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S8x1024x2048, .f32⟩
  | .hbm, ⟨28, _⟩ => ⟨S1x1x2048, .f32⟩
  | .hbm, ⟨29, _⟩ => ⟨S8x1024x2048, .f32⟩
  | .hbm, ⟨30, _⟩ => ⟨S8x1024x2048, .f32⟩
  | .hbm, ⟨31, _⟩ => ⟨S1x1x2048, .f32⟩
  | .hbm, ⟨32, _⟩ => ⟨S8x1024x2048, .f32⟩
  | .hbm, ⟨33, _⟩ => ⟨S8x1024x2048, .f32⟩
  | .hbm, ⟨34, _⟩ => ⟨S8x1024x2048, .f32⟩
  | .hbm, ⟨35, _⟩ => ⟨S1x1x2048, .f32⟩
  | .hbm, ⟨36, _⟩ => ⟨S8x1024x2048, .f32⟩
  | .hbm, ⟨37, _⟩ => ⟨S8x1024x2048, .f32⟩
  | .hbm, ⟨38, _⟩ => ⟨S1x1x2048, .f32⟩
  | .hbm, ⟨39, _⟩ => ⟨S8x1024x2048, .f32⟩
  | .hbm, ⟨40, _⟩ => ⟨S8x1024x2048, .f32⟩
  | .hbm, ⟨41, _⟩ => ⟨S8x1024x2048, .f32⟩
  | .hbm, ⟨42, _⟩ => ⟨S2048x1, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S8x1024x4096, .f32⟩
  | .hbm, ⟨53, _⟩ => ⟨S2048x1, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_5 : Ref sig .tc := ⟨.hbm, 55, rfl⟩
abbrev main_v45 : Ref sig .tc := ⟨.hbm, 56, rfl⟩
abbrev main_v46 : Ref sig .tc := ⟨.hbm, 57, rfl⟩
abbrev main_c_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]

class Facts₀ : Prop where
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x2_S2048x1_0_1 : S2048x2.Slices ![0, 1] S2048x1
  bcast_S2048_S1x1x2048_2 : S2048.BroadcastsInDim S1x1x2048 (![2] : Fin 1 → Fin S1x1x2048.rank)
  bcast_S1x1x2048_S8x1024x2048_0_1_2 : S1x1x2048.BroadcastsInDim S8x1024x2048 (![0, 1, 2] : Fin 3 → Fin S8x1024x2048.rank)
  gather_S8x1024x4096_S2048x1_S8x1024x2048_01_2_n_n_2_1_810241_wf : GatherDims.WF S8x1024x4096 S2048x1 S8x1024x2048 [0, 1] [2] [] [2] [] 1 ![8, 1024, 1]
  scatter_S8x1024x4096_S2048x1_S8x1024x2048_01_2_2_1_wf : ScatterDims.WF S8x1024x4096 S2048x1 S8x1024x2048 [0, 1] [2] [2] 1

variable [Facts₀]

def gather_S8x1024x4096_S2048x1_S8x1024x2048_01_2_n_n_2_1_810241 : GatherDims S8x1024x4096 S2048x1 S8x1024x2048 where
  offsetDims := [0, 1]
  collapsedSliceDims := [2]
  operandBatchingDims := []
  startIndicesBatchingDims := []
  startIndexMap := [2]
  indexVectorDim := 1
  sliceSizes := ![8, 1024, 1]
  wf := gather_S8x1024x4096_S2048x1_S8x1024x2048_01_2_n_n_2_1_810241_wf
def scatter_S8x1024x4096_S2048x1_S8x1024x2048_01_2_2_1 : ScatterDims S8x1024x4096 S2048x1 S8x1024x2048 where
  updateWindowDims := [0, 1]
  insertedWindowDims := [2]
  scatterDimsToOperandDims := [2]
  indexVectorDim := 1
  wf := scatter_S8x1024x4096_S2048x1_S8x1024x2048_01_2_2_1_wf

class Facts : Prop extends Facts₀ where

variable [Facts]
-- ==== Proof.KernelRun.lean ====
/-
  The idealized kernel's run with its result named.

  The program ends with one host operation after the matrix-product region: the reshape of the region's output array
  [8192, 4096] to [8, 1024, 4096]. So the result buffer ends at that reshape of the array the region leaves
  (`out_tail`), and the run's post names it (`run_value`), with the four argument arrays unchanged.
-/
import proofs.«429514_j12232066859560_2_alg».proof.Proof.Gen.KernelIdeal.Frame
import Idealize.ShloMosaic.PureOps.Ideal
import Idealize.ShloMosaic.Lib.StableHlo.Run
import Idealize.ShloMosaic.Lib.Pipeline.Value
import Idealize.ShloMosaic.Lib.ValueIdx

noncomputable section

namespace Cert.KernelIdeal.RunVal

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The result array: the region's output array, reshaped. -/
def outArr (c : Dev nD) : Buf (Elt Ideal) ((c.tc : Thread nD τ).loc main_v108) :=
  shapeCast S8x1024x4096 ((dats m 0 c).arrAt 2 cfg0.N) Facts₀.shapeCasts_S8192x4096_S8x1024x4096

/-- What the one host operation after the region leaves in the result buffer. -/
theorem out_tail (c : Dev nD) :
    Pipeline.afterTail₀ cfgs (dats m) 0 (V0 m) [hostOps1] c main_v108 = outArr m c := by
  unfold Pipeline.afterTail₀
  show StableHlo.after hostOps1 _ (Proc.devRef .tc main_v108) = _
  after_results
  have h := Pipeline.withArrays_arr (cfgs 0).spec launch0.win.arr_inj c (V0 m c)
    (fun w => (dats m 0 c).arrAt w (cfgs 0).N) 2
  funext i
  show shapeCast S8x1024x4096 (Pipeline.withArrays (cfgs 0).spec c (V0 m c) (fun w => (dats m 0 c).arrAt w (cfgs 0).N)
      (Proc.devRef .tc (Pipeline.arrRef (cfgs 0).spec 2))) Facts₀.shapeCasts_S8192x4096_S8x1024x4096 i = _
  rw [h]
  rfl

/-- The result at (a, b, q) is the region's output array at row `a · 1024 + b`, column `q`: the two indices have the
    same row-major position. -/
theorem outArr_apply (c : Dev nD) (a : Fin 8) (b : Fin 1024) (q : Fin 4096) :
    (outArr m c : S8x1024x4096.Idx → EReal) (ValueIdx.ix3 a b q)
      = ((dats m 0 c).arrAt 2 cfg0.N : S8192x4096.Idx → EReal) (ValueIdx.ix2 ⟨a.val * 1024 + b.val, by omega⟩ q) := by
  unfold outArr
  refine shapeCast_apply _ _ _ _ ?_
  show (S8192x4096.rowMajor (ValueIdx.ix2 (⟨a.val * 1024 + b.val, by omega⟩ : Fin 8192) q)).val
      = (S8x1024x4096.rowMajor (ValueIdx.ix3 a b q)).val
  rw [Shape.rowMajor_val_two, Shape.rowMajor_val_three]
  rfl

/-- Every weakly fair execution of the idealized kernel terminates with the result buffer at `outArr` and the
    arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v108) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v108 (Pipeline.mem_restRefs_of main_v108 (by decide) (by decide))).trans (out_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunVal

end
-- ==== Proof.Spec.lean ====
/-
  The slot-by-slot description both programs are compared through.

  An index word is wrapped as jnp wraps a negative index: `wrapE w` is `w + 4096` when `w` is negative as a signed
  word, else `w`. Output slot `k` of the feature axis is HIT by pair `e` of column `col` of the output table when
  that table's word, wrapped and read signed, is `k`; a word that wraps to no slot hits nothing. Both programs write
  column 0's pairs first and column 1's after, each in the order of `e`, so what a slot ends with is decided by the
  LAST pair hitting it in column 1, failing that the last in column 0, failing that nothing (the slot keeps the input).
-/
import Idealize.ShloMosaic.PureOps
import Idealize.ShloMosaic.Lib.ValueIdx

noncomputable section

namespace Cert.Hand.Spec

open Idealize.ShloMosaic Idealize.ShloMosaic.ValueIdx

/-- jnp's wrap of a negative index into an axis of 4096 entries, on one 32-bit word, spelt as both programs spell it. -/
def wrapE (w : BitVec 32) : BitVec 32 :=
  Scalar.select (IntOp.cmpi .slt w 0#32) (IntOp.addi w 4096#32) w

/-- Pair `e` of column `col` of the table `op` writes output slot `k`. -/
def Hit (op : (⟨2, ![2048, 2]⟩ : Shape).Idx → BitVec 32) (col : Fin 2) (k : Fin 4096) (e : Fin 2048) : Prop :=
  (wrapE (op (ix2 e col))).toInt = (k.val : ℤ)

/-- `e₀` is the last pair of column `col` writing slot `k`. -/
def Last (op : (⟨2, ![2048, 2]⟩ : Shape).Idx → BitVec 32) (col : Fin 2) (k : Fin 4096) (e₀ : Fin 2048) : Prop :=
  Hit op col k e₀ ∧ ∀ e : Fin 2048, e₀ < e → ¬Hit op col k e

/-- A slot some pair writes has a last pair writing it. -/
theorem exists_last (op : (⟨2, ![2048, 2]⟩ : Shape).Idx → BitVec 32) (col : Fin 2) (k : Fin 4096)
    (h : ∃ e, Hit op col k e) : ∃ e₀, Last op col k e₀ := by
  classical
  obtain ⟨e₀, he₀, hmax⟩ := Finset.exists_max_image (Finset.univ.filter fun e => Hit op col k e) id
    (by obtain ⟨e, he⟩ := h; exact ⟨e, Finset.mem_filter.2 ⟨Finset.mem_univ _, he⟩⟩)
  refine ⟨e₀, (Finset.mem_filter.1 he₀).2, fun e hlt he => ?_⟩
  have := hmax e (Finset.mem_filter.2 ⟨Finset.mem_univ _, he⟩)
  exact absurd hlt (not_lt.2 this)

end Cert.Hand.Spec

end
-- ==== Proof.Algebra.lean ====
/-
  The algebra that joins the two programs at one output element.

  The kernel's element is a sum over the 4096 source features of (input feature) × (matrix entry), and every column
  of the matrix has at most two non-zero entries: coefficient `C` in row `g` and coefficient `S` in row `g'`
  (added up when the two rows coincide). Over FINITE values such a sum collapses to `C · f g + S · f g'`
  (`sum_two_hot`): distributivity and `0 · x = 0` hold on the reals, which is where the finiteness of the inputs
  is used. A column with the single entry 1 in row `k` gives back `f k` (`sum_one_hot`). The rotation's
  `c · a − s · b` is `c · a + (−s) · b` (`sub_eq_add_neg_mul`), again for finite values.
  The cosine and sine of a finite angle are finite (`cos_finite`, `sin_finite`).
-/
import Idealize.ShloMosaic.PureOps.Ideal
import Mathlib.Algebra.BigOperators.Fin
import Mathlib.Algebra.BigOperators.Ring.Finset
import Mathlib.Data.EReal.Basic

noncomputable section

open scoped BigOperators

namespace Cert.Hand.Algebra

open Idealize.ShloMosaic

/-- A finite sum of reals, each read as an extended real, is the sum read as an extended real. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A column with coefficient `C` in row `g` and `S` in row `g'`, against finite features. -/
theorem sum_two_hot {n : ℕ} (f : Fin n → EReal) (hf : ∀ i, ∃ r : ℝ, f i = (r : EReal)) (g g' : Fin n) (C S : EReal)
    (hC : ∃ r : ℝ, C = (r : EReal)) (hS : ∃ r : ℝ, S = (r : EReal)) :
    ∑ k : Fin n, f k * ((if k = g then C else 0) + (if k = g' then S else 0)) = C * f g + S * f g' := by
  choose F hF using hf
  obtain ⟨c, rfl⟩ := hC
  obtain ⟨s, rfl⟩ := hS
  have hterm : ∀ k : Fin n, f k * ((if k = g then (c : EReal) else 0) + (if k = g' then (s : EReal) else 0))
      = ((F k * ((if k = g then c else 0) + (if k = g' then s else 0)) : ℝ) : EReal) := by
    intro k
    rw [hF k]
    split_ifs <;> norm_cast
  rw [Finset.sum_congr rfl fun k _ => hterm k, coe_sum, hF g, hF g']
  have : (∑ k : Fin n, F k * ((if k = g then c else 0) + (if k = g' then s else 0))) = c * F g + s * F g' := by
    simp only [mul_add, mul_ite, mul_zero, Finset.sum_add_distrib, Finset.sum_ite_eq', Finset.mem_univ, if_true]
    ring
  rw [this]
  norm_cast

/-- A column whose one entry is 1, in row `g`, gives back feature `g`. -/
theorem sum_one_hot {n : ℕ} (f : Fin n → EReal) (g : Fin n) :
    ∑ k : Fin n, f k * (if k = g then (1 : EReal) else 0) = f g := by
  simp only [mul_ite, mul_one, mul_zero, Finset.sum_ite_eq', Finset.mem_univ, if_true]

/-- `c · a − s · b = c · a + (−s) · b`. -/
theorem sub_eq_add_neg_mul (c s a b : EReal) : c * a - s * b = c * a + (-s) * b := by
  rw [sub_eq_add_neg, EReal.neg_mul]

/-- The cosine of a finite angle is finite. -/
theorem cos_finite (x : EReal) (hx : ∃ r : ℝ, x = (r : EReal)) : ∃ r : ℝ, Ideal.cos x = (r : EReal) := by
  obtain ⟨r, rfl⟩ := hx
  exact ⟨Real.cos r, rfl⟩

/-- The sine of a finite angle is finite. -/
theorem sin_finite (x : EReal) (hx : ∃ r : ℝ, x = (r : EReal)) : ∃ r : ℝ, Ideal.sin x = (r : EReal) := by
  obtain ⟨r, rfl⟩ := hx
  exact ⟨Real.sin r, rfl⟩

/-- The negative of a finite value is finite. -/
theorem neg_finite (x : EReal) (hx : ∃ r : ℝ, x = (r : EReal)) : ∃ r : ℝ, -x = (r : EReal) := by
  obtain ⟨r, rfl⟩ := hx
  exact ⟨-r, by norm_cast⟩

end Cert.Hand.Algebra

end
-- ==== Proof.PreFacts.lean ====
/-
  The precondition read back as facts about the inputs: every entry of the two float inputs is a real number, and every
  word of the pair table, wrapped as jnp wraps a negative index into an axis of 4096 entries, names a slot in [0, 4096).
-/
import proofs.«429514_j12232066859560_2_alg».proof.Pre_finite_inputs
import proofs.«429514_j12232066859560_2_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.Hand.PreFacts

open Idealize.ShloMosaic Idealize.ShloMosaic.ValueIdx Cert.Hand.Spec

variable [Cert.Pre_finite_inputs.Facts]

/-- The scalar shape has one index. -/
instance : Subsingleton Cert.Pre_finite_inputs.S_.Idx := ⟨fun a b => funext fun d => d.elim0⟩

/-- An extended real whose absolute value is below +∞ is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | coe r => exact ⟨r, rfl⟩
  | top => simp at h

/-- The three conjuncts of the precondition, each at every element. -/
theorem split {x0 : FVec Ideal Cert.Pre_finite_inputs.S8x1024x4096 .f32} {x1 : FVec Ideal Cert.Pre_finite_inputs.S2048 .f32}
    {x2 x3 : IVec Cert.Pre_finite_inputs.S2048x2 32}
    (h : Cert.Pre_finite_inputs.fn (F := Ideal) x0 x1 x2 x3 = fun _ => 1#1) :
    (∀ i, FloatOps.cmpf (F := Ideal) (φ := .f32) .olt (FloatOps.hostAbsf (F := Ideal) (φ := .f32) (x0 i))
        (FloatOps.ofBits (F := Ideal) .f32 0x7F800000#32) = 1#1)
    ∧ (∀ i, FloatOps.cmpf (F := Ideal) (φ := .f32) .olt (FloatOps.hostAbsf (F := Ideal) (φ := .f32) (x1 i))
        (FloatOps.ofBits (F := Ideal) .f32 0x7F800000#32) = 1#1)
    ∧ (∀ i, IntOp.cmpi .sge (x2 i) 4294963200#32 = 1#1 ∧ IntOp.cmpi .slt (x2 i) 4096#32 = 1#1) := by
  have e := congrFun h ix0
  dsimp only [Cert.Pre_finite_inputs.fn] at e
  change IntOp.andi (IntOp.andi _ _) _ = 1#1 at e
  obtain ⟨e01, e2⟩ := IntOp.andi_eq_one.1 e
  obtain ⟨e0, e1⟩ := IntOp.andi_eq_one.1 e01
  refine ⟨fun i => ?_, fun i => ?_, fun i => ?_⟩
  · exact Host.reduce_andi_all _ _ _ _ _ e0 i
  · exact Host.reduce_andi_all _ _ _ _ _ e1 i
  · exact IntOp.andi_eq_one.1 (Host.reduce_andi_all _ _ _ _ _ e2 i)

/-- A word in [−4096, 4096) as a signed word, read as its signed value. -/
theorem toInt_range (w : BitVec 32) (h1 : IntOp.cmpi .sge w 4294963200#32 = 1#1) (h2 : IntOp.cmpi .slt w 4096#32 = 1#1) :
    -4096 ≤ w.toInt ∧ w.toInt < 4096 := by
  unfold IntOp.cmpi at h1 h2
  rw [StableHlo.Predicate.ofBool_eq_one_iff] at h1 h2
  simp only [BitVec.slt, BitVec.sle, decide_eq_true_eq] at h1 h2
  have c1 : (4294963200#32 : BitVec 32).toInt = -4096 := by decide
  have c2 : (4096#32 : BitVec 32).toInt = 4096 := by decide
  rw [c1] at h1; rw [c2] at h2
  exact ⟨h1, h2⟩

/-- jnp's wrap of such a word names a slot of the axis of 4096 entries. -/
theorem wrapE_range (w : BitVec 32) (h1 : -4096 ≤ w.toInt) (h2 : w.toInt < 4096) :
    0 ≤ (wrapE w).toInt ∧ (wrapE w).toInt < 4096 := by
  unfold wrapE Scalar.select IntOp.cmpi IntOp.addi
  have c0 : (0#32 : BitVec 32).toInt = 0 := by decide
  by_cases hneg : w.toInt < 0
  · have hc : BitVec.ofBool (w.slt 0#32) = 1 := by
      show BitVec.ofBool (w.slt 0#32) = 1#1
      rw [StableHlo.Predicate.ofBool_eq_one_iff]; simp only [BitVec.slt, c0, decide_eq_true_eq]; exact hneg
    rw [if_pos hc]
    have hadd : (w + 4096#32).toInt = w.toInt + 4096 := by
      rw [BitVec.toInt_add]
      have c2 : (4096#32 : BitVec 32).toInt = 4096 := by decide
      rw [c2]
      exact Int.bmod_eq_of_le_mul_two (by omega) (by omega)
    rw [hadd]; omega
  · have hc : ¬ BitVec.ofBool (w.slt 0#32) = 1 := by
      show ¬ BitVec.ofBool (w.slt 0#32) = 1#1
      rw [StableHlo.Predicate.ofBool_eq_one_iff]; simp only [BitVec.slt, c0, decide_eq_true_eq]; exact hneg
    rw [if_neg hc]; omega

variable {x0 : FVec Ideal Cert.Pre_finite_inputs.S8x1024x4096 .f32} {x1 : FVec Ideal Cert.Pre_finite_inputs.S2048 .f32}
  {x2 x3 : IVec Cert.Pre_finite_inputs.S2048x2 32}

/-- Every entry of the first input is a real. -/
theorem finite_inp (h : Cert.Pre_finite_inputs.fn (F := Ideal) x0 x1 x2 x3 = fun _ => 1#1) :
    ∀ i, ∃ r : ℝ, x0 i = (r : EReal) := fun i => real_of_abs_lt _ ((split h).1 i)

/-- Every angle is a real. -/
theorem finite_ang (h : Cert.Pre_finite_inputs.fn (F := Ideal) x0 x1 x2 x3 = fun _ => 1#1) :
    ∀ i, ∃ r : ℝ, x1 i = (r : EReal) := fun i => real_of_abs_lt _ ((split h).2.1 i)

/-- Every word of the pair table wraps into [0, 4096). -/
theorem pairs_range (h : Cert.Pre_finite_inputs.fn (F := Ideal) x0 x1 x2 x3 = fun _ => 1#1) :
    ∀ (e : Fin 2048) (col : Fin 2), 0 ≤ (wrapE (x2 (ix2 e col))).toInt ∧ (wrapE (x2 (ix2 e col))).toInt < 4096 := fun e col => by
  obtain ⟨a, b⟩ := (split h).2.2 (ix2 e col)
  obtain ⟨a', b'⟩ := toInt_range _ a b
  exact wrapE_range _ a' b'

/-- Every word of the pair table wraps to a slot of the axis. -/
theorem pairs_slot (h : Cert.Pre_finite_inputs.fn (F := Ideal) x0 x1 x2 x3 = fun _ => 1#1) (e : Fin 2048) (col : Fin 2) :
    ∃ g : Fin 4096, (wrapE (x2 (ix2 e col))).toInt = (g.val : ℤ) := by
  obtain ⟨a, b⟩ := pairs_range h e col
  refine ⟨⟨(wrapE (x2 (ix2 e col))).toInt.toNat, by omega⟩, ?_⟩
  show _ = ((wrapE (x2 (ix2 e col))).toInt.toNat : ℤ)
  omega

end Cert.Hand.PreFacts

end
-- ==== Proof.KernelMatmul1.lean ====
import proofs.«429514_j12232066859560_2_alg».proof.Proof.Gen.KernelIdeal.Frame
import Idealize.ShloMosaic.Lib.Pipeline.Value
import Idealize.ShloMosaic.Lib.Tactic
import Idealize.ShloMosaic.Lib.ValueIdx

noncomputable section

namespace Cert.KernelIdeal.MatVal

open Cert.KernelIdeal Cert.KernelIdeal.Gen Idealize.ShloMosaic Idealize.ShloMosaic.ValueIdx
open Idealize.ShloMosaic.TcCoe Idealize.SL.Sem Idealize.ShloMosaic.Tactic

/-! # What each control case of the matmul body leaves behind

The body keeps an f32 accumulator block in a scratch buffer. With `a` the current block of the left operand, `b`
the current block of the matrix and `acc` the accumulator's contents, one step computes `step a acc b = acc + a · b`
(`k0_pay2`). At the first contraction step the accumulator is first reset to the zero block (`k0_pay1`); at the last
one the updated accumulator is also copied to the output block. -/

variable {F : FTy → Type} [FloatOps F]

theorem hz : (![0, 0] : Fin 2 → Nat) = fun _ => 0 := funext fun a => by fin_cases a <;> rfl

/-- A middle contraction step leaves `acc + a · b` in the accumulator. -/
theorem acc_mid (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .bf16) (xs0 : Vec F S1024x1024 .f32) :
    sout0_B_0 c i arg3 harg3 arg4 harg4 arg5 harg5 arg6 harg6 hc0 hc1 x0 x1 xs0 = k0_pay2 x0 xs0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

/-- The last contraction step leaves `acc + a · b` in the accumulator … -/
theorem acc_last (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .bf16) (xs0 : Vec F S1024x1024 .f32) :
    sout0_C_0 c i arg3 harg3 arg4 harg4 arg5 harg5 arg6 harg6 hc0 hc1 x0 x1 xs0 = k0_pay2 x0 xs0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

/-- … and the same block in the output's staging buffer. -/
theorem out_last (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .bf16) (xs0 : Vec F S1024x1024 .f32) :
    out0_C_2 c i arg3 harg3 arg4 harg4 arg5 harg5 arg6 harg6 hc0 hc1 x0 x1 xs0 = k0_pay2 x0 xs0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz, View.readCov_unit_zero (S := S1024x1024) _ hz]

/-- The first contraction step resets the accumulator and leaves `0 + a · b` in it. -/
theorem acc_first (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .bf16) :
    sout0_A_0 c i arg3 harg3 arg4 harg4 arg5 harg5 arg6 harg6 hc0 hc1 x0 x1 = k0_pay2 x0 (k0_pay1 (F := F)) x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

end Cert.KernelIdeal.MatVal

end
-- ==== Proof.KernelMatmul2.lean ====
import proofs.«429514_j12232066859560_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.MatVal

open Cert.KernelIdeal Cert.KernelIdeal.Gen Idealize.ShloMosaic Idealize.ShloMosaic.ValueIdx
open Idealize.ShloMosaic.TcCoe Idealize.SL.Sem Idealize.ShloMosaic.Tactic

/-! # One accumulation step, entry by entry

Over the extended reals the step `acc + a · b` on 1024 × 1024 blocks reads, at row `p` and column `q`,
`acc[p, q] + ∑ x < 1024, a[p, x] * b[x, q]`: the block product contracts the left block's columns against the right
block's rows, and the narrowing of `a` to bf16 changes no value. The reset block is zero everywhere. -/

/-- The product's left operand is read at (row of the result, contraction position) … -/
theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- … and its right operand at (contraction position, column of the result). -/
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into the zero block, at an entry: the sum over the contraction position of the products. -/
theorem prod_apply (a : FVec Ideal S1024x1024 .bf16) (b : FVec Ideal S1024x1024 .bf16) (p q : Fin 1024) :
    FloatOps.matmul dot_S1024x1024_S1024x1024_S1024x1024_1_0_0_1_n_n none a b (constant (F := Ideal) S1024x1024 .f32 0x00000000#32) (ix2 p q)
      = ∑ x : Fin 1024, a (ix2 p x) * b (ix2 x q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

variable {F : FTy → Type} [FloatOps F]

/-- The step as one expression: the same-shape casts are identities. -/
theorem step_eq (a acc : Vec F S1024x1024 .f32) (b : Vec F S1024x1024 .bf16) :
    k0_pay2 a acc b = addf acc (matmul dot_S1024x1024_S1024x1024_S1024x1024_1_0_0_1_n_n none (truncf .bf16 a bitsLt_bf16_f32) b (constant S1024x1024 .f32 0x00000000#32)) := by
  unfold k0_pay2
  simp only [shapeCast_self]

/-- The step at an entry, over the extended reals. -/
theorem step_apply (a acc : Vec Ideal S1024x1024 .f32) (b : Vec Ideal S1024x1024 .bf16) (p q : Fin 1024) :
    (k0_pay2 a acc b : S1024x1024.Idx → EReal) (ix2 p q) = (acc : S1024x1024.Idx → EReal) (ix2 p q) + ∑ x : Fin 1024, (a : S1024x1024.Idx → EReal) (ix2 p x) * (b : S1024x1024.Idx → EReal) (ix2 x q) := by
  refine (congrFun (step_eq (F := Ideal) a acc b) (ix2 p q)).trans ?_
  refine (addf_apply _ _ _).trans ?_
  exact congrArg (acc (ix2 p q) + ·) (prod_apply _ b p q)

/-- The reset block is zero at every entry. -/
theorem reset_apply (j : S1024x1024.Idx) : (k0_pay1 (F := Ideal) : S1024x1024.Idx → EReal) j = 0 := by
  unfold k0_pay1
  simp only [shapeCast_self]
  exact Ideal.ofBits_zero_f32

end Cert.KernelIdeal.MatVal

end
-- ==== Proof.KernelMatmul3.lean ====
import proofs.«429514_j12232066859560_2_alg».proof.Proof.Gen.KernelIdeal.Frame
import Idealize.ShloMosaic.Lib.Pipeline.Value
import Idealize.ShloMosaic.Lib.ValueIdx
import Mathlib.Algebra.BigOperators.Fin
import Mathlib.Logic.Equiv.Fin.Basic

noncomputable section

namespace Cert.KernelIdeal.MatVal

open Cert.KernelIdeal Cert.KernelIdeal.Gen Idealize.ShloMosaic Idealize.ShloMosaic.ValueIdx
open Idealize.ShloMosaic.TcCoe Idealize.SL.Sem Idealize.ShloMosaic.Tactic

/-! # The blocks the body sees, as entries of the two arrays

Grid point `t` of the 8 × 4 × 4 grid has coordinates `(t / 16, (t / 4) % 4, t % 4)` = (block row `i`, block column
`j`, contraction block `kk`). The left operand's block at `t` is block `(i, kk)` of the [8192, 4096] array, the
matrix's block is block `(kk, j)` of the [4096, 4096] array, and the output's block is block `(i, j)`: entry
`(p, x)` of a block sits at `(1024 * block row + p, 1024 * block column + x)` of its array. -/

variable (m : (ℓ : Loc nD τ sig) → Buf (Elt Ideal) ℓ)

/-- The left operand's block and the matrix's block at a grid point. -/
abbrev ablk (c : Dev nD) (t : Fin cfg0.N) : Vec Ideal S1024x1024 .f32 := iblk m c 0 t
abbrev bblk (c : Dev nD) (t : Fin cfg0.N) : Vec Ideal S1024x1024 .bf16 := iblk m c 1 t
/-- The left operand [8192, 4096] and the matrix [4096, 4096] as the region finds them. -/
abbrev aarr (c : Dev nD) : Vec Ideal S8192x4096 .f32 := V m c main_v106
abbrev barr (c : Dev nD) : Vec Ideal S4096x4096 .bf16 := V m c main_v105

/-- A rank-2 array of extended reals read at natural-number coordinates (zero outside its extents, which no use
    below meets): it lets the sums below speak of `1024 * kk + x` without carrying bounds. -/
def rd2 {R C : ℕ} (A : (⟨2, ![R, C]⟩ : Shape).Idx → EReal) (r k : ℕ) : EReal :=
  if h : r < R ∧ k < C then A (ix2 ⟨r, h.1⟩ ⟨k, h.2⟩) else 0

theorem rd2_val {R C : ℕ} (A : (⟨2, ![R, C]⟩ : Shape).Idx → EReal) (r : Fin R) (k : Fin C) :
    rd2 A r.val k.val = A (ix2 r k) := dif_pos ⟨r.isLt, k.isLt⟩

/-- The windows' block indices at a grid point, decided over the grid. -/
theorem idx_facts : ∀ t : Fin cfg0.N, win0_0.index t (0 : Fin 2) = t.val / 16 ∧ win0_0.index t (1 : Fin 2) = t.val % 4
    ∧ win0_1.index t (0 : Fin 2) = t.val % 4 ∧ win0_1.index t (1 : Fin 2) = (t.val / 4) % 4
    ∧ win0_2.index t (0 : Fin 2) = t.val / 16 ∧ win0_2.index t (1 : Fin 2) = (t.val / 4) % 4 :=
  (by decide +kernel : ∀ t : Fin grid0.N, _)

/-- Entry `(p, x)` of the left block at `t` is entry `(1024 * (t / 16) + p, 1024 * (t % 4) + x)` of the left operand. -/
theorem ablk_apply (c : Dev nD) (t : Fin cfg0.N) (p x : Fin 1024) :
    (ablk m c t : S1024x1024.Idx → EReal) (ix2 p x)
      = rd2 (aarr m c : S8192x4096.Idx → EReal) (1024 * (t.val / 16) + p.val) (1024 * (t.val % 4) + x.val) := by
  have hN : t.val < 128 := lt_of_lt_of_eq t.isLt (show cfg0.N = 128 from N_0)
  have hp := p.isLt
  have hx := x.isLt
  obtain ⟨e0, e1, -⟩ := idx_facts t
  unfold rd2
  rw [dif_pos ⟨by omega, by omega⟩]
  show ((cfg0.win 0).blk t).view.read (Elt Ideal) (V m c main_v106) (ix2 p x) = _
  rw [View.read_apply]
  show V m c main_v106 _ = V m c main_v106 _
  congr 1
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 1024 + 1 * x.val = 1024 * (t.val % 4) + x.val; rw [e1]; omega

/-- Entry `(x, q)` of the matrix's block at `t` is entry `(1024 * (t % 4) + x, 1024 * ((t / 4) % 4) + q)` of the matrix. -/
theorem bblk_apply (c : Dev nD) (t : Fin cfg0.N) (x q : Fin 1024) :
    (bblk m c t : S1024x1024.Idx → EReal) (ix2 x q)
      = rd2 (barr m c : S4096x4096.Idx → EReal) (1024 * (t.val % 4) + x.val) (1024 * ((t.val / 4) % 4) + q.val) := by
  have hN : t.val < 128 := lt_of_lt_of_eq t.isLt (show cfg0.N = 128 from N_0)
  have hq := q.isLt
  have hx := x.isLt
  obtain ⟨-, -, e2, e3, -⟩ := idx_facts t
  unfold rd2
  rw [dif_pos ⟨by omega, by omega⟩]
  show ((cfg0.win 1).blk t).view.read (Elt Ideal) (V m c main_v105) (ix2 x q) = _
  rw [View.read_apply]
  show V m c main_v105 _ = V m c main_v105 _
  congr 1
  funext a
  apply Fin.ext
  match a with
  | ⟨0, _⟩ => show win0_1.index t (0 : Fin 2) * 1024 + 1 * x.val = 1024 * (t.val % 4) + x.val; rw [e2]; omega
  | ⟨1, _⟩ => show win0_1.index t (1 : Fin 2) * 1024 + 1 * q.val = 1024 * ((t.val / 4) % 4) + q.val; rw [e3]; omega

/-- Four runs of 1024 consecutive positions are the 4096 positions. -/
theorem sum_blocks (f : ℕ → EReal) :
    ∑ k' : Fin 4, ∑ x : Fin 1024, f (1024 * k'.val + x.val) = ∑ k : Fin 4096, f k.val := by
  have h := Equiv.sum_comp (finProdFinEquiv (m := 4) (n := 1024)) (fun k : Fin (4 * 1024) => f k.val)
  rw [Fintype.sum_prod_type] at h
  refine Eq.trans (Finset.sum_congr rfl fun a _ => Finset.sum_congr rfl fun b _ => ?_) h
  show f (1024 * a.val + b.val) = f (finProdFinEquiv (a, b)).val
  congr 1
  show 1024 * a.val + b.val = b.val + 1024 * a.val
  omega

end Cert.KernelIdeal.MatVal

end
-- ==== Proof.KernelMatmul4.lean ====
import proofs.«429514_j12232066859560_2_alg».proof.Proof.KernelMatmul1
import proofs.«429514_j12232066859560_2_alg».proof.Proof.KernelMatmul2
import proofs.«429514_j12232066859560_2_alg».proof.Proof.KernelMatmul3

noncomputable section

namespace Cert.KernelIdeal.MatVal

open Cert.KernelIdeal Cert.KernelIdeal.Gen Idealize.ShloMosaic Idealize.ShloMosaic.ValueIdx
open Idealize.ShloMosaic.TcCoe Idealize.SL.Sem Idealize.ShloMosaic.Tactic

/-! # The accumulator after each grid point

Write `A` for the left operand and `B` for the matrix. At the grid point `n` = (block row `i`, block column `j`,
contraction block `kk`) the accumulator ends holding, at `(p, q)`, the partial sum over the contraction blocks
`0 … kk` of `∑ x < 1024, A[1024 i + p, 1024 k' + x] * B[1024 k' + x, 1024 j + q]`: the first contraction step
starts from the zero block, every later one adds its block product to what the step before left, and the points
`n - 1` and `n` share `i` and `j` whenever `kk ≠ 0`. At `kk = 3` the output's block holds the same. -/

variable (m : (ℓ : Loc nD τ sig) → Buf (Elt Ideal) ℓ)

/-- Contraction block `k'`'s share of entry `(p, q)` of the output block of point `n`. -/
def term (c : Dev nD) (n : ℕ) (p q : Fin 1024) (k' : ℕ) : EReal :=
  ∑ x : Fin 1024, rd2 (aarr m c : S8192x4096.Idx → EReal) (1024 * (n / 16) + p.val) (1024 * k' + x.val)
    * rd2 (barr m c : S4096x4096.Idx → EReal) (1024 * k' + x.val) (1024 * ((n / 4) % 4) + q.val)

/-- The shares of the contraction blocks `0 … n % 4`. -/
def psum (c : Dev nD) (n : ℕ) (p q : Fin 1024) : EReal := ∑ k' ∈ Finset.range (n % 4 + 1), term m c n p q k'

/-- Within one run of four points the block row and block column do not move. -/
theorem term_succ (c : Dev nD) (n : ℕ) (hn : (n + 1) % 4 ≠ 0) (p q : Fin 1024) (k' : ℕ) :
    term m c (n + 1) p q k' = term m c n p q k' := by
  unfold term
  rw [show (n + 1) / 16 = n / 16 by omega, show ((n + 1) / 4) % 4 = (n / 4) % 4 by omega]

theorem psum_first (c : Dev nD) (n : ℕ) (h0 : n % 4 = 0) (p q : Fin 1024) :
    psum m c n p q = term m c n p q (n % 4) := by
  unfold psum
  rw [h0]
  exact Finset.sum_range_one _

theorem psum_succ (c : Dev nD) (n : ℕ) (hn : (n + 1) % 4 ≠ 0) (p q : Fin 1024) :
    psum m c (n + 1) p q = psum m c n p q + term m c (n + 1) p q ((n + 1) % 4) := by
  unfold psum
  rw [show (n + 1) % 4 = n % 4 + 1 by omega, Finset.sum_range_succ]
  exact congrArg (· + term m c (n + 1) p q (n % 4 + 1)) (Finset.sum_congr rfl fun k' _ => term_succ m c n hn p q k')

/-- One step at point `t`, at an entry: the accumulator's entry plus the share of `t`'s contraction block. -/
theorem step_at (c : Dev nD) (t : Fin cfg0.N) (acc : Vec Ideal S1024x1024 .f32) (p q : Fin 1024) :
    (k0_pay2 (ablk m c t) acc (bblk m c t) : S1024x1024.Idx → EReal) (ix2 p q)
      = (acc : S1024x1024.Idx → EReal) (ix2 p q) + term m c t.val p q (t.val % 4) := by
  refine (step_apply (ablk m c t) acc (bblk m c t) p q).trans ?_
  refine congrArg ((acc : S1024x1024.Idx → EReal) (ix2 p q) + ·) ?_
  unfold term
  exact Finset.sum_congr rfl fun x _ => by rw [ablk_apply m c t p x, bblk_apply m c t x q]

/-- After a first contraction step the accumulator holds that block's share alone. -/
theorem scratch_first (c : Dev nD) (t : Fin cfg0.N) (h0 : t.val % 4 = 0) (p q : Fin 1024) :
    ((outsAt0 m c t.val t.isLt).2 : S1024x1024.Idx → EReal) (ix2 p q) = term m c t.val p q (t.val % 4) := by
  have h1 : ¬t.val % 4 = 3 := by omega
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (ablk m c t) (bblk m c t)) (ix2 p q)).trans ?_
  refine (step_at m c t (k0_pay1 (F := Ideal)) p q).trans ?_
  rw [reset_apply, zero_add]

/-- After a middle contraction step: what the point before left, plus this block's share. -/
theorem scratch_mid (c : Dev nD) (t : Fin cfg0.N) (h0 : ¬t.val % 4 = 0) (h1 : ¬t.val % 4 = 3) (p q : Fin 1024) :
    ((outsAt0 m c t.val t.isLt).2 : S1024x1024.Idx → EReal) (ix2 p q)
      = ((outsAt0 m c (t.val - 1) (Nat.lt_of_le_of_lt (Nat.sub_le _ _) t.isLt)).2 : S1024x1024.Idx → EReal) (ix2 p q)
        + term m c t.val p q (t.val % 4) := by
  rw [outsAt0_B m c t h0 h1]
  dsimp only
  refine (congrFun (acc_mid (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (ablk m c t) (bblk m c t) (outsAt0 m c (t.val - 1) (Nat.lt_of_le_of_lt (Nat.sub_le _ _) t.isLt)).2) (ix2 p q)).trans ?_
  exact step_at m c t _ p q

/-- After the last contraction step: the same in the accumulator … -/
theorem scratch_last (c : Dev nD) (t : Fin cfg0.N) (h0 : ¬t.val % 4 = 0) (h1 : t.val % 4 = 3) (p q : Fin 1024) :
    ((outsAt0 m c t.val t.isLt).2 : S1024x1024.Idx → EReal) (ix2 p q)
      = ((outsAt0 m c (t.val - 1) (Nat.lt_of_le_of_lt (Nat.sub_le _ _) t.isLt)).2 : S1024x1024.Idx → EReal) (ix2 p q)
        + term m c t.val p q (t.val % 4) := by
  rw [outsAt0_C m c t h0 h1]
  dsimp only
  refine (congrFun (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (ablk m c t) (bblk m c t) (outsAt0 m c (t.val - 1) (Nat.lt_of_le_of_lt (Nat.sub_le _ _) t.isLt)).2) (ix2 p q)).trans ?_
  exact step_at m c t _ p q

/-- … and in the output's block. -/
theorem block_last (c : Dev nD) (t : Fin cfg0.N) (h0 : ¬t.val % 4 = 0) (h1 : t.val % 4 = 3) (p q : Fin 1024) :
    ((outsAt0 m c t.val t.isLt).1 : S1024x1024.Idx → EReal) (ix2 p q)
      = ((outsAt0 m c (t.val - 1) (Nat.lt_of_le_of_lt (Nat.sub_le _ _) t.isLt)).2 : S1024x1024.Idx → EReal) (ix2 p q)
        + term m c t.val p q (t.val % 4) := by
  rw [outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (ablk m c t) (bblk m c t) (outsAt0 m c (t.val - 1) (Nat.lt_of_le_of_lt (Nat.sub_le _ _) t.isLt)).2) (ix2 p q)).trans ?_
  exact step_at m c t _ p q

/-- THE INVARIANT: after point `n` the accumulator holds the partial sum over the contraction blocks `0 … n % 4`. -/
theorem scratch_eq (c : Dev nD) : ∀ (n : ℕ) (h : n < cfg0.N) (p q : Fin 1024),
    ((outsAt0 m c n h).2 : S1024x1024.Idx → EReal) (ix2 p q) = psum m c n p q := by
  intro n
  induction n with
  | zero =>
    intro h p q
    exact (scratch_first m c ⟨0, h⟩ rfl p q).trans (psum_first m c 0 rfl p q).symm
  | succ n ih =>
    intro h p q
    by_cases h0 : (n + 1) % 4 = 0
    · exact (scratch_first m c ⟨n + 1, h⟩ h0 p q).trans (psum_first m c (n + 1) h0 p q).symm
    · have hprev := ih (Nat.lt_of_succ_lt h) p q
      by_cases h1 : (n + 1) % 4 = 3
      · refine (scratch_last m c ⟨n + 1, h⟩ h0 h1 p q).trans ?_
        refine Eq.trans ?_ (psum_succ m c n h0 p q).symm
        exact congrArg (· + term m c (n + 1) p q ((n + 1) % 4)) hprev
      · refine (scratch_mid m c ⟨n + 1, h⟩ h0 h1 p q).trans ?_
        refine Eq.trans ?_ (psum_succ m c n h0 p q).symm
        exact congrArg (· + term m c (n + 1) p q ((n + 1) % 4)) hprev

/-- At a point that ends a run of four the output's block holds the sum over all four contraction blocks. -/
theorem block_eq (c : Dev nD) (t : Fin cfg0.N) (h3 : t.val % 4 = 3) (p q : Fin 1024) :
    ((outsAt0 m c t.val t.isLt).1 : S1024x1024.Idx → EReal) (ix2 p q) = psum m c t.val p q := by
  obtain ⟨n, hn⟩ := t
  cases n with
  | zero => exact absurd (show (0 : ℕ) % 4 = 3 from h3) (by decide)
  | succ n =>
    have h0 : ¬(n + 1) % 4 = 0 := by have : (n + 1) % 4 = 3 := h3; omega
    refine (block_last m c ⟨n + 1, hn⟩ h0 h3 p q).trans ?_
    refine Eq.trans ?_ (psum_succ m c n h0 p q).symm
    exact congrArg (· + term m c (n + 1) p q ((n + 1) % 4)) (scratch_eq m c n (Nat.lt_of_succ_lt hn) p q)

end Cert.KernelIdeal.MatVal

end
-- ==== Proof.KernelMatmul.lean ====
import proofs.«429514_j12232066859560_2_alg».proof.Proof.KernelMatmul4

noncomputable section

namespace Cert.KernelIdeal.MatVal

open Cert.KernelIdeal Cert.KernelIdeal.Gen Idealize.ShloMosaic Idealize.ShloMosaic.ValueIdx
open Idealize.ShloMosaic.TcCoe Idealize.SL.Sem Idealize.ShloMosaic.Tactic

/-! # The output array after the run: the matrix product

The output's block `(i, j)` is written back at the last contraction step of its run of four points, where it holds
the sum over all four contraction blocks — the full contraction over the 4096 positions; the 8 × 4 output blocks tile
the [8192, 4096] array, so the array ends as `out[r, q] = ∑ k < 4096, A[r, k] * B[k, q]`. -/

variable (m : (ℓ : Loc nD τ sig) → Buf (Elt Ideal) ℓ)

/-- The left operand [8192, 4096], the matrix [4096, 4096] (both as the region finds them) and the output array
    [8192, 4096] after the run, as functions into the extended reals. -/
abbrev lhsArr (c : Dev nD) : S8192x4096.Idx → EReal := Gen.V m c main_v106
abbrev pArr (c : Dev nD) : S4096x4096.Idx → EReal := Gen.V m c main_v105
abbrev outArr2 (c : Dev nD) : S8192x4096.Idx → EReal := (Gen.dats m 0 c).arrAt 2 cfg0.N

/-- The matrix product of the two arrays. -/
def prodArr (c : Dev nD) : S8192x4096.Idx → EReal :=
  fun i => ∑ k : Fin 4096, lhsArr m c (ix2 (i 0) k) * pArr m c (ix2 k (i 1))

/-- At a point that ends a run of four the partial sum is the whole contraction: four runs of 1024 positions. -/
theorem psum_full (c : Dev nD) (n : ℕ) (h3 : n % 4 = 3) (p q : Fin 1024) (r : Fin 8192) (cq : Fin 4096)
    (hr : r.val = 1024 * (n / 16) + p.val) (hc : cq.val = 1024 * ((n / 4) % 4) + q.val) :
    psum m c n p q = ∑ k : Fin 4096, lhsArr m c (ix2 r k) * pArr m c (ix2 k cq) := by
  unfold psum
  rw [h3]
  show ∑ k' ∈ Finset.range 4, term m c n p q k' = _
  rw [← Fin.sum_univ_eq_sum_range (fun k' => term m c n p q k') 4]
  unfold term
  rw [← hr, ← hc]
  refine (sum_blocks (fun k => rd2 (aarr m c : S8192x4096.Idx → EReal) r.val k * rd2 (barr m c : S4096x4096.Idx → EReal) k cq.val)).trans ?_
  exact Finset.sum_congr rfl fun k _ => by rw [rd2_val, rd2_val]

/-- What a point that ends a run of four writes back is its block of the matrix product. -/
theorem flushed_eq (c : Dev nD) (t : Fin cfg0.N) (hf : (cfg0.win 2).flush t = true) :
    (dats m 0 c).flushed 2 t = ((cfg0.win 2).blk t).view.read (Elt Ideal) (prodArr m c) := by
  have h3 : t.val % 4 = 3 := (flush0_2 t).mp hf
  have hN : t.val < 128 := lt_of_lt_of_eq t.isLt (show cfg0.N = 128 from N_0)
  obtain ⟨-, -, -, -, e4, e5⟩ := idx_facts t
  show (cfg0.win 2).cut (grid0.coords t) ((dats m 0 c).after 2 t) = _
  rw [after0_2]
  funext j
  revert j
  show ∀ j : S1024x1024.Idx, ((outsAt0 m c t.val t.isLt).1 : S1024x1024.Idx → EReal) j = prodArr m c (((cfg0.win 2).blk t).view.emb j)
  intro j
  obtain ⟨p, q, rfl⟩ : ∃ (p q : Fin 1024), j = ix2 p q := ⟨j 0, j 1, eq_ix2 j⟩
  have hp := p.isLt
  have hq := q.isLt
  refine (block_eq m c t h3 p q).trans ?_
  refine (psum_full m c t.val h3 p q ⟨1024 * (t.val / 16) + p.val, by omega⟩ ⟨1024 * ((t.val / 4) % 4) + q.val, by omega⟩ rfl rfl).trans ?_
  have er : (((cfg0.win 2).blk t).view.emb (ix2 p q)) 0 = (⟨1024 * (t.val / 16) + p.val, by omega⟩ : Fin 8192) :=
    Fin.ext (show win0_2.index t (0 : Fin 2) * 1024 + 1 * p.val = 1024 * (t.val / 16) + p.val by rw [e4]; omega)
  have ec : (((cfg0.win 2).blk t).view.emb (ix2 p q)) 1 = (⟨1024 * ((t.val / 4) % 4) + q.val, by omega⟩ : Fin 4096) :=
    Fin.ext (show win0_2.index t (1 : Fin 2) * 1024 + 1 * q.val = 1024 * ((t.val / 4) % 4) + q.val by rw [e5]; omega)
  unfold prodArr
  dsimp only
  rw [er, ec]

/-- An index of the output array is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v107).slice (win0_2.rect t)).set ↔ _
  rw [View.set_slice_whole, Rect.mem_set_unit]
  exact Iff.rfl

/-- Every entry `(r, q)` of the output lies in the block written back at the point
    `16 * (r / 1024) + 4 * (q / 1024) + 3`. -/
theorem covered (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- So the output array ends holding the matrix product. -/
theorem final (c : Dev nD) : outArr2 m c = prodArr m c :=
  (dats m 0 c).arrAt_eq_of_cover 2 (prodArr m c) (flushed_eq m c) covered

/-- THE REGION'S VALUE: after the run, entry `(r, q)` of the output array is the contraction of row `r` of the left
    operand with column `q` of the matrix. -/
theorem region_value (c : Dev nD) (r : Fin 8192) (q : Fin 4096) :
    outArr2 m c (ix2 r q) = ∑ k : Fin 4096, lhsArr m c (ix2 r k) * pArr m c (ix2 k q) :=
  congrFun (final m c) (ix2 r q)

end Cert.KernelIdeal.MatVal

end
-- ==== Proof.LibScatterSet.lean ====
/-
  GENERAL LEMMA: a host scatter whose body returns the update (jnp's `x.at[idx].set(v)`), READ AT AN INDEX, for any
  dimension numbers and any element type.

  The scatter is the left fold, over the update indices in row-major order, of "replace the element the update lands
  on by the update". So an element no update lands on keeps the operand's value (`scatter_set_none`), and an element
  some update lands on ends at the LAST such update in row-major order (`scatter_set_last`): every later step leaves
  it alone.
  Nothing here mentions a program.
-/
import Idealize.ShloMosaic.PureOps.ShapeOps
import Idealize.ShloMosaic.PureOps.Dims

noncomputable section

namespace Cert.Hand.ScatterSet

open Idealize.ShloMosaic

variable {s si u : Shape} {α : Type} {w : Nat}

/-- A left fold of steps on functions, read at one point `i`: if every step of the list leaves the value at `i`
    alone, the fold does. -/
theorem foldl_keep {ι β γ : Type} (step : (β → γ) → ι → β → γ) (i : β) (P : ι → Prop)
    (hkeep : ∀ r n, ¬ P n → step r n i = r i) (l : List ι) (r₀ : β → γ) (h : ∀ n ∈ l, ¬ P n) :
    l.foldl step r₀ i = r₀ i := by
  induction l generalizing r₀ with
  | nil => rfl
  | cons n l ih =>
    rw [List.foldl_cons, ih _ (fun m hm => h m (List.mem_cons_of_mem _ hm))]
    exact hkeep r₀ n (h n List.mem_cons_self)

/-- The same fold when the step at `n₀` writes `v n₀` at `i` and every step after it leaves `i` alone: the fold
    ends at `v n₀` there, whatever came before. -/
theorem foldl_last {ι β γ : Type} (step : (β → γ) → ι → β → γ) (i : β) (P : ι → Prop) (v : ι → γ)
    (hkeep : ∀ r n, ¬ P n → step r n i = r i) (hset : ∀ r n, P n → step r n i = v n)
    (l₁ l₂ : List ι) (n₀ : ι) (r₀ : β → γ) (h₀ : P n₀) (h₂ : ∀ n ∈ l₂, ¬ P n) :
    (l₁ ++ n₀ :: l₂).foldl step r₀ i = v n₀ := by
  rw [List.foldl_append, List.foldl_cons, foldl_keep step i P hkeep l₂ _ h₂]
  exact hset _ n₀ h₀

/-- One step of the scatter whose body returns the update: the update at row-major position `n` replaces the element
    it lands on, and is dropped when it lands outside the operand. -/
private def step (d : ScatterDims s si u) (idx : IVec si w) (upd : u.Idx → α) (r : s.Idx → α) (n : Fin u.numel) :
    s.Idx → α :=
  match d.resultIdx? (u.rowMajor.symm n) idx with
  | some i'' => fun i' => if i' = i'' then upd (u.rowMajor.symm n) else r i'
  | none => r

/-- The scatter is the fold of that step over the row-major enumeration of the updates. -/
private theorem scatter_eq_foldl (d : ScatterDims s si u) (x : s.Idx → α) (idx : IVec si w) (upd : u.Idx → α) :
    Host.scatter d (fun _ b => b) x idx upd = (List.finRange u.numel).foldl (step d idx upd) x := rfl

/-- A step that does not land on `i` leaves the value there. -/
private theorem step_keep (d : ScatterDims s si u) (idx : IVec si w) (upd : u.Idx → α) (i : s.Idx)
    (r : s.Idx → α) (n : Fin u.numel) (hn : ¬ d.resultIdx? (u.rowMajor.symm n) idx = some i) :
    step d idx upd r n i = r i := by
  unfold step
  generalize d.resultIdx? (u.rowMajor.symm n) idx = o at hn
  cases o with
  | none => rfl
  | some i'' =>
    have hne : i ≠ i'' := fun e => hn (e ▸ rfl)
    exact if_neg hne

/-- A step that lands on `i` writes its update there. -/
private theorem step_set (d : ScatterDims s si u) (idx : IVec si w) (upd : u.Idx → α) (i : s.Idx)
    (r : s.Idx → α) (n : Fin u.numel) (hn : d.resultIdx? (u.rowMajor.symm n) idx = some i) :
    step d idx upd r n i = upd (u.rowMajor.symm n) := by
  unfold step
  rw [hn]
  exact if_pos rfl

/-- No update lands on `i`: the scatter leaves the operand's element there. -/
theorem scatter_set_none (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_keep _ i (fun n => d.resultIdx? (u.rowMajor.symm n) idx = some i)
    (step_keep d idx upd i) _ x (fun n _ => h (u.rowMajor.symm n))

/-- Update `j₀` lands on `i` and no update after it in row-major order does: the scatter leaves `upd j₀` there. -/
theorem scatter_set_last (d : ScatterDims s si u) (x : s.Idx → α) (idx : IVec si w) (upd : u.Idx → α) (i : s.Idx)
    (j₀ : u.Idx) (h₀ : d.resultIdx? j₀ idx = some i)
    (hl : ∀ j : u.Idx, (u.rowMajor j₀).val < (u.rowMajor j).val → d.resultIdx? j idx ≠ some i) :
    Host.scatter d (fun _ b => b) x idx upd i = upd j₀ := by
  rw [scatter_eq_foldl]
  -- split the row-major enumeration at the position of `j₀`; it is strictly increasing, so what follows is later
  obtain ⟨l₁, l₂, hl₁₂⟩ := List.append_of_mem (List.mem_finRange (u.rowMajor j₀))
  have hpw := List.pairwise_lt_finRange u.numel
  rw [hl₁₂] at hpw ⊢
  have hlater : ∀ n ∈ l₂, u.rowMajor j₀ < n := (List.pairwise_cons.1 (List.pairwise_append.1 hpw).2.1).1
  have key := foldl_last (step d idx upd) i (fun n => d.resultIdx? (u.rowMajor.symm n) idx = some i)
    (fun n => upd (u.rowMajor.symm n)) (step_keep d idx upd i) (step_set d idx upd i)
    l₁ l₂ (u.rowMajor j₀) x (by rw [Equiv.symm_apply_apply]; exact h₀)
    (fun n hn => hl (u.rowMajor.symm n) (by rw [Equiv.apply_symm_apply]; exact hlater n hn))
  rw [Equiv.symm_apply_apply] at key
  exact key

end Cert.Hand.ScatterSet

end
-- ==== Proof.LibScatterDims.lean ====
/-
  GENERAL LEMMA: where an update lands, and which element a gather reads, for three dimension-number records that
  jnp's indexing along ONE axis lowers to, at arbitrary extents.

  * `lastScatter A B N E`: updates [A, B, E] scattered into an operand [A, B, N] at a column [E, 1] of start words
    along the LAST axis (`x.at[..., idx].set(v)`): update (a, b, e) lands at (a, b, word e read signed), or nowhere
    when that is no entry; in row-major order, among updates of one (a, b), later e is later.
  * `pointScatter N M E`: a vector of updates [E] scattered into a matrix [N, M] at a table [E, 2] of (row, column)
    words (`P.at[rows, cols].add(v)`): update e lands at (row word e, column word e), both read signed.
  * `lastGather A B N E`: `x[..., idx]` of an operand [A, B, N] at a column [E, 1]: result (a, b, e) reads the
    operand at (a, b, word e read signed), when that is an entry.
  Nothing here mentions a program: each record is built from a well-formedness fact the caller has.
-/
import Idealize.ShloMosaic.PureOps.ShapeOps
import Idealize.ShloMosaic.PureOps.Dims
import Idealize.ShloMosaic.Lib.ValueIdx

noncomputable section

namespace Cert.Hand.ScatterDims

open Idealize.ShloMosaic Idealize.ShloMosaic.ValueIdx

/-! ## Updates [A, B, E] into [A, B, N] along the last axis -/

abbrev lastScatter (A B N E : Nat)
    (wf : ScatterDims.WF ⟨3, ![A, B, N]⟩ ⟨2, ![E, 1]⟩ ⟨3, ![A, B, E]⟩ [0, 1] [2] [2] 1) :
    ScatterDims ⟨3, ![A, B, N]⟩ ⟨2, ![E, 1]⟩ ⟨3, ![A, B, E]⟩ where
  updateWindowDims := [0, 1]
  insertedWindowDims := [2]
  scatterDimsToOperandDims := [2]
  indexVectorDim := 1
  wf := wf

section LastScatter

variable {A B N E w : Nat}
  (wf : ScatterDims.WF ⟨3, ![A, B, N]⟩ ⟨2, ![E, 1]⟩ ⟨3, ![A, B, E]⟩ [0, 1] [2] [2] 1)
  (idx : IVec ⟨2, ![E, 1]⟩ w) (a : Fin A) (b : Fin B) (e : Fin E)

/-- Axes 0 and 1 are not indexed: the window starts at 0 there … -/
theorem lastScatter_start0 : (lastScatter A B N E wf).start (ix3 a b e) idx 0 = 0 := by
  unfold ScatterDims.start
  rw [dif_neg]
  show (0 : Fin 3) ∉ [(2 : Fin 3)]
  decide

theorem lastScatter_start1 : (lastScatter A B N E wf).start (ix3 a b e) idx 1 = 0 := by
  unfold ScatterDims.start
  rw [dif_neg]
  show (1 : Fin 3) ∉ [(2 : Fin 3)]
  decide

/-- … and on the last axis at the start word of e, read signed. -/
theorem lastScatter_start2 : (lastScatter A B N E wf).start (ix3 a b e) idx 2 = (idx (ix2 e 0)).toInt := by
  unfold ScatterDims.start
  rw [dif_pos (show (2 : Fin 3) ∈ (lastScatter A B N E wf).scatterDimsToOperandDims from List.mem_singleton.mpr rfl)]
  have hsi : (lastScatter A B N E wf).siIdx (ix3 a b e)
      ⟨List.idxOf (2 : Fin 3) (lastScatter A B N E wf).scatterDimsToOperandDims,
        List.idxOf_lt_length_iff.2 (List.mem_singleton.mpr rfl)⟩ = ix2 e 0 := by
    funext c; refine Fin.ext ?_
    match c with
    | ⟨0, _⟩ => rfl
    | ⟨1, _⟩ => rfl
  rw [hsi]

/-- The window coordinate is the update's own coordinate on axes 0 and 1, and 0 on the inserted last axis. -/
theorem lastScatter_window0 : (lastScatter A B N E wf).window (ix3 a b e) 0 = a.val := by
  unfold ScatterDims.window
  rw [dif_pos (show (0 : Fin 3) ∈ (lastScatter A B N E wf).sKept from
    (by decide : (0 : Fin 3) ∈ (List.finRange 3).filter (· ∉ [(2 : Fin 3)])))]
  rfl

theorem lastScatter_window1 : (lastScatter A B N E wf).window (ix3 a b e) 1 = b.val := by
  unfold ScatterDims.window
  rw [dif_pos (show (1 : Fin 3) ∈ (lastScatter A B N E wf).sKept from
    (by decide : (1 : Fin 3) ∈ (List.finRange 3).filter (· ∉ [(2 : Fin 3)])))]
  rfl

theorem lastScatter_window2 : (lastScatter A B N E wf).window (ix3 a b e) 2 = 0 := by
  unfold ScatterDims.window
  rw [dif_neg]
  show (2 : Fin 3) ∉ (List.finRange 3).filter (· ∉ [(2 : Fin 3)])
  decide

end LastScatter

/-- Update (a, b, e) lands at (a', b', d) exactly when a = a', b = b' and the start word of e, read signed, is d. -/
theorem lastScatter_resultIdx_iff {A B N E w : Nat}
    (wf : ScatterDims.WF ⟨3, ![A, B, N]⟩ ⟨2, ![E, 1]⟩ ⟨3, ![A, B, E]⟩ [0, 1] [2] [2] 1)
    (idx : IVec ⟨2, ![E, 1]⟩ w) (a : Fin A) (b : Fin B) (e : Fin E) (a' : Fin A) (b' : Fin B) (d : Fin N) :
    (lastScatter A B N E wf).resultIdx? (ix3 a b e) idx = some (ix3 a' b' d)
      ↔ a = a' ∧ b = b' ∧ (idx (ix2 e 0)).toInt = (d.val : ℤ) := by
  unfold ScatterDims.resultIdx?
  split
  · next h =>
    rw [Option.some.injEq]
    constructor
    · intro hf
      have e0 : ((lastScatter A B N E wf).start (ix3 a b e) idx 0
          + ((lastScatter A B N E wf).window (ix3 a b e) 0 : ℕ)).toNat = a'.val :=
        congrArg (fun f => (f 0).val) hf
      have e1 : ((lastScatter A B N E wf).start (ix3 a b e) idx 1
          + ((lastScatter A B N E wf).window (ix3 a b e) 1 : ℕ)).toNat = b'.val :=
        congrArg (fun f => (f 1).val) hf
      have e2 : ((lastScatter A B N E wf).start (ix3 a b e) idx 2
          + ((lastScatter A B N E wf).window (ix3 a b e) 2 : ℕ)).toNat = d.val :=
        congrArg (fun f => (f 2).val) hf
      have h2 := h 2
      rw [lastScatter_start0, lastScatter_window0] at e0
      rw [lastScatter_start1, lastScatter_window1] at e1
      rw [lastScatter_start2, lastScatter_window2] at e2 h2
      refine ⟨Fin.ext ?_, Fin.ext ?_, ?_⟩
      · omega
      · omega
      · omega
    · rintro ⟨rfl, rfl, hd⟩
      funext c
      refine Fin.ext ?_
      match c with
      | ⟨0, _⟩ =>
        show ((lastScatter A B N E wf).start (ix3 a b e) idx 0
          + ((lastScatter A B N E wf).window (ix3 a b e) 0 : ℕ)).toNat = a.val
        rw [lastScatter_start0, lastScatter_window0]
        omega
      | ⟨1, _⟩ =>
        show ((lastScatter A B N E wf).start (ix3 a b e) idx 1
          + ((lastScatter A B N E wf).window (ix3 a b e) 1 : ℕ)).toNat = b.val
        rw [lastScatter_start1, lastScatter_window1]
        omega
      | ⟨2, _⟩ =>
        show ((lastScatter A B N E wf).start (ix3 a b e) idx 2
          + ((lastScatter A B N E wf).window (ix3 a b e) 2 : ℕ)).toNat = d.val
        rw [lastScatter_start2, lastScatter_window2]
        omega
  · next h =>
    constructor
    · intro hf
      exact absurd hf (by simp)
    · rintro ⟨rfl, rfl, hd⟩
      exfalso
      apply h
      intro c
      match c with
      | ⟨0, _⟩ =>
        show 0 ≤ (lastScatter A B N E wf).start (ix3 a b e) idx 0 + ((lastScatter A B N E wf).window (ix3 a b e) 0 : ℕ)
          ∧ (lastScatter A B N E wf).start (ix3 a b e) idx 0 + ((lastScatter A B N E wf).window (ix3 a b e) 0 : ℕ) < (A : ℤ)
        rw [lastScatter_start0, lastScatter_window0]
        have := a.isLt
        omega
      | ⟨1, _⟩ =>
        show 0 ≤ (lastScatter A B N E wf).start (ix3 a b e) idx 1 + ((lastScatter A B N E wf).window (ix3 a b e) 1 : ℕ)
          ∧ (lastScatter A B N E wf).start (ix3 a b e) idx 1 + ((lastScatter A B N E wf).window (ix3 a b e) 1 : ℕ) < (B : ℤ)
        rw [lastScatter_start1, lastScatter_window1]
        have := b.isLt
        omega
      | ⟨2, _⟩ =>
        show 0 ≤ (lastScatter A B N E wf).start (ix3 a b e) idx 2 + ((lastScatter A B N E wf).window (ix3 a b e) 2 : ℕ)
          ∧ (lastScatter A B N E wf).start (ix3 a b e) idx 2 + ((lastScatter A B N E wf).window (ix3 a b e) 2 : ℕ) < (N : ℤ)
        rw [lastScatter_start2, lastScatter_window2]
        have := d.isLt
        omega

/-- Row-major order among the updates of one (a, b) is the order of e. -/
theorem lastScatter_rowMajor_lt {A B E : Nat} (a : Fin A) (b : Fin B) (e e' : Fin E) :
    ((⟨3, ![A, B, E]⟩ : Shape).rowMajor (ix3 a b e)).val < ((⟨3, ![A, B, E]⟩ : Shape).rowMajor (ix3 a b e')).val
      ↔ e.val < e'.val := by
  rw [Shape.rowMajor_val_three, Shape.rowMajor_val_three]
  show (a.val * B + b.val) * E + e.val < (a.val * B + b.val) * E + e'.val ↔ e.val < e'.val
  omega

/-! ## A vector of updates [E] into a matrix [N, M] at (row, column) words -/

abbrev pointScatter (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section PointScatter

variable {N M E w : Nat}
  (wf : ScatterDims.WF ⟨2, ![N, M]⟩ ⟨2, ![E, 2]⟩ ⟨1, ![E]⟩ [] [0, 1] [0, 1] 1)
  (idx : IVec ⟨2, ![E, 2]⟩ w) (e : Fin E)

/-- The row starts at the row word of e, the column at its column word, both read signed … -/
theorem pointScatter_start0 : (pointScatter N M E wf).start (ix1 e) idx 0 = (idx (ix2 e 0)).toInt := by
  unfold ScatterDims.start
  rw [dif_pos (show (0 : Fin 2) ∈ (pointScatter N M E wf).scatterDimsToOperandDims from
    (by decide : (0 : Fin 2) ∈ [(0 : Fin 2), 1]))]
  have hsi : (pointScatter N M E wf).siIdx (ix1 e)
      ⟨List.idxOf (0 : Fin 2) (pointScatter N M E wf).scatterDimsToOperandDims,
        List.idxOf_lt_length_iff.2 (by decide : (0 : Fin 2) ∈ [(0 : Fin 2), 1])⟩ = ix2 e 0 := by
    funext c; refine Fin.ext ?_
    match c with
    | ⟨0, _⟩ => rfl
    | ⟨1, _⟩ => rfl
  rw [hsi]

theorem pointScatter_start1 : (pointScatter N M E wf).start (ix1 e) idx 1 = (idx (ix2 e 1)).toInt := by
  unfold ScatterDims.start
  rw [dif_pos (show (1 : Fin 2) ∈ (pointScatter N M E wf).scatterDimsToOperandDims from
    (by decide : (1 : Fin 2) ∈ [(0 : Fin 2), 1]))]
  have hsi : (pointScatter N M E wf).siIdx (ix1 e)
      ⟨List.idxOf (1 : Fin 2) (pointScatter N M E wf).scatterDimsToOperandDims,
        List.idxOf_lt_length_iff.2 (by decide : (1 : Fin 2) ∈ [(0 : Fin 2), 1])⟩ = ix2 e 1 := by
    funext c; refine Fin.ext ?_
    match c with
    | ⟨0, _⟩ => rfl
    | ⟨1, _⟩ => rfl
  rw [hsi]

/-- … and both operand axes are inserted axes: the window coordinates are 0. -/
theorem pointScatter_window0 : (pointScatter N M E wf).window (ix1 e) 0 = 0 := by
  unfold ScatterDims.window
  rw [dif_neg]
  show (0 : Fin 2) ∉ (List.finRange 2).filter (· ∉ [(0 : Fin 2), 1])
  decide

theorem pointScatter_window1 : (pointScatter N M E wf).window (ix1 e) 1 = 0 := by
  unfold ScatterDims.window
  rw [dif_neg]
  show (1 : Fin 2) ∉ (List.finRange 2).filter (· ∉ [(0 : Fin 2), 1])
  decide

end PointScatter

/-- Update e lands at (r, c) exactly when its row word read signed is r and its column word read signed is c. -/
theorem pointScatter_resultIdx_iff {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (r : Fin N) (c : Fin M) :
    (pointScatter N M E wf).resultIdx? (ix1 e) idx = some (ix2 r c)
      ↔ (idx (ix2 e 0)).toInt = (r.val : ℤ) ∧ (idx (ix2 e 1)).toInt = (c.val : ℤ) := by
  unfold ScatterDims.resultIdx?
  split
  · next h =>
    rw [Option.some.injEq]
    have h0 := h 0
    have h1 := h 1
    rw [pointScatter_start0, pointScatter_window0] at h0
    rw [pointScatter_start1, pointScatter_window1] at h1
    constructor
    · intro hf
      have e0 : ((pointScatter N M E wf).start (ix1 e) idx 0
          + ((pointScatter N M E wf).window (ix1 e) 0 : ℕ)).toNat = r.val :=
        congrArg (fun f => (f 0).val) hf
      have e1 : ((pointScatter N M E wf).start (ix1 e) idx 1
          + ((pointScatter N M E wf).window (ix1 e) 1 : ℕ)).toNat = c.val :=
        congrArg (fun f => (f 1).val) hf
      rw [pointScatter_start0, pointScatter_window0] at e0
      rw [pointScatter_start1, pointScatter_window1] at e1
      constructor
      · omega
      · omega
    · rintro ⟨hr, hc⟩
      funext k
      refine Fin.ext ?_
      match k with
      | ⟨0, _⟩ =>
        show ((pointScatter N M E wf).start (ix1 e) idx 0
          + ((pointScatter N M E wf).window (ix1 e) 0 : ℕ)).toNat = r.val
        rw [pointScatter_start0, pointScatter_window0]
        omega
      | ⟨1, _⟩ =>
        show ((pointScatter N M E wf).start (ix1 e) idx 1
          + ((pointScatter N M E wf).window (ix1 e) 1 : ℕ)).toNat = c.val
        rw [pointScatter_start1, pointScatter_window1]
        omega
  · next h =>
    constructor
    · intro hf
      exact absurd hf (by simp)
    · rintro ⟨hr, hc⟩
      exfalso
      apply h
      intro k
      match k with
      | ⟨0, _⟩ =>
        show 0 ≤ (pointScatter N M E wf).start (ix1 e) idx 0 + ((pointScatter N M E wf).window (ix1 e) 0 : ℕ)
          ∧ (pointScatter N M E wf).start (ix1 e) idx 0 + ((pointScatter N M E wf).window (ix1 e) 0 : ℕ) < (N : ℤ)
        rw [pointScatter_start0, pointScatter_window0]
        have := r.isLt
        omega
      | ⟨1, _⟩ =>
        show 0 ≤ (pointScatter N M E wf).start (ix1 e) idx 1 + ((pointScatter N M E wf).window (ix1 e) 1 : ℕ)
          ∧ (pointScatter N M E wf).start (ix1 e) idx 1 + ((pointScatter N M E wf).window (ix1 e) 1 : ℕ) < (M : ℤ)
        rw [pointScatter_start1, pointScatter_window1]
        have := c.isLt
        omega

/-! ## `x[..., idx]` of [A, B, N] at a column [E, 1] -/

abbrev lastGather (A B N E : Nat)
    (wf : GatherDims.WF ⟨3, ![A, B, N]⟩ ⟨2, ![E, 1]⟩ ⟨3, ![A, B, E]⟩ [0, 1] [2] [] [2] [] 1 ![A, B, 1]) :
    GatherDims ⟨3, ![A, B, N]⟩ ⟨2, ![E, 1]⟩ ⟨3, ![A, B, E]⟩ where
  offsetDims := [0, 1]
  collapsedSliceDims := [2]
  operandBatchingDims := []
  startIndicesBatchingDims := []
  startIndexMap := [2]
  indexVectorDim := 1
  sliceSizes := ![A, B, 1]
  wf := wf

/-- Result (a, b, e) reads the operand at (a, b, g) when the start word of e, read signed, is the entry g. -/
theorem lastGather_apply {α : Type} {A B N E w : Nat}
    (wf : GatherDims.WF ⟨3, ![A, B, N]⟩ ⟨2, ![E, 1]⟩ ⟨3, ![A, B, E]⟩ [0, 1] [2] [] [2] [] 1 ![A, B, 1])
    (x : (⟨3, ![A, B, N]⟩ : Shape).Idx → α) (idx : IVec ⟨2, ![E, 1]⟩ w) (a : Fin A) (b : Fin B) (e : Fin E) (g : Fin N)
    (hg : (idx (ix2 e 0)).toInt = (g.val : ℤ)) :
    Host.gather (lastGather A B N E wf) x idx (ix3 a b e) = x (ix3 a b g) := by
  unfold Host.gather
  congr 1
  funext k
  refine Fin.ext ?_
  match k with
  | ⟨0, _⟩ =>
    show (lastGather A B N E wf).start (ix3 a b e) idx 0 + (lastGather A B N E wf).batchCoord (ix3 a b e) 0
      + (lastGather A B N E wf).offCoord (ix3 a b e) 0 = a.val
    rw [GatherDims.batchCoord_eq_zero _ _ _ List.not_mem_nil]
    have hst : (lastGather A B N E wf).start (ix3 a b e) idx 0 = 0 := by
      unfold GatherDims.start
      rw [dif_neg]
      show (0 : Fin 3) ∉ [(2 : Fin 3)]
      decide
    have hoff : (lastGather A B N E wf).offCoord (ix3 a b e) 0 = a.val := by
      unfold GatherDims.offCoord
      rw [dif_pos (show (0 : Fin 3) ∈ (lastGather A B N E wf).sKept from
        (by decide : (0 : Fin 3) ∈ (List.finRange 3).filter (· ∉ [(2 : Fin 3)] ++ [])))]
      rfl
    rw [hst, hoff]
    omega
  | ⟨1, _⟩ =>
    show (lastGather A B N E wf).start (ix3 a b e) idx 1 + (lastGather A B N E wf).batchCoord (ix3 a b e) 1
      + (lastGather A B N E wf).offCoord (ix3 a b e) 1 = b.val
    rw [GatherDims.batchCoord_eq_zero _ _ _ List.not_mem_nil]
    have hst : (lastGather A B N E wf).start (ix3 a b e) idx 1 = 0 := by
      unfold GatherDims.start
      rw [dif_neg]
      show (1 : Fin 3) ∉ [(2 : Fin 3)]
      decide
    have hoff : (lastGather A B N E wf).offCoord (ix3 a b e) 1 = b.val := by
      unfold GatherDims.offCoord
      rw [dif_pos (show (1 : Fin 3) ∈ (lastGather A B N E wf).sKept from
        (by decide : (1 : Fin 3) ∈ (List.finRange 3).filter (· ∉ [(2 : Fin 3)] ++ [])))]
      rfl
    rw [hst, hoff]
    omega
  | ⟨2, _⟩ =>
    show (lastGather A B N E wf).start (ix3 a b e) idx 2 + (lastGather A B N E wf).batchCoord (ix3 a b e) 2
      + (lastGather A B N E wf).offCoord (ix3 a b e) 2 = g.val
    rw [GatherDims.batchCoord_eq_zero _ _ _ List.not_mem_nil,
      GatherDims.offCoord_eq_zero _ _ _ (fun h => ((GatherDims.mem_sKept _ _).mp h).1 (List.mem_singleton.mpr rfl))]
    have hst : (lastGather A B N E wf).start (ix3 a b e) idx 2 = min (idx (ix2 e 0)).toInt.toNat (N - 1) := by
      unfold GatherDims.start
      rw [dif_pos (show (2 : Fin 3) ∈ (lastGather A B N E wf).startIndexMap from List.mem_singleton.mpr rfl)]
      have hsi : (lastGather A B N E wf).siIdx (ix3 a b e)
          ⟨List.idxOf (2 : Fin 3) (lastGather A B N E wf).startIndexMap,
            List.idxOf_lt_length_iff.2 (List.mem_singleton.mpr rfl)⟩ = ix2 e 0 := by
        funext c; refine Fin.ext ?_
        match c with
        | ⟨0, _⟩ => rfl
        | ⟨1, _⟩ => rfl
      rw [hsi]
      rfl
    rw [hst, hg]
    have := g.isLt
    omega

end Cert.Hand.ScatterDims

end
-- ==== Proof.LibVecScatterAdd.lean ====
/-
  GENERAL LEMMA: the accumulating scatter of a VECTOR of updates [E] into a vector operand [N] at a column [E, 1] of
  start words (`segment_sum` / `.at[idx].add` of a rank-1 array), READ AT AN INDEX over the extended reals, for
  arbitrary extents N (entries) and E (updates).

  Update e lands at entry (the start word of e read signed and NOT clamped), or nowhere when that is no entry
  (`vecScatter_resultIdx_iff`); so entry d of the result is the operand's entry plus the sum, over the updates
  whose word read signed is d, of the update (`vecScatterAdd_apply`). With it the re-indexing of a sum over the
  indices of a rank-1 shape as a sum over its one coordinate (`sum_idx1`).
  Nothing here mentions a program: the dimension-number record is built from a well-formedness fact the caller has.
-/
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.Hand.VecScatter

open Idealize.ShloMosaic Idealize.ShloMosaic.ValueIdx

/-- An index of a rank-1 shape is its one coordinate … -/
def idxEquiv1 {n : Nat} : (⟨1, ![n]⟩ : Shape).Idx ≃ Fin n where
  toFun i := i 0
  invFun a := ix1 a
  left_inv i := (eq_ix1 i).symm
  right_inv _ := rfl

/-- … so a sum over the indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of a vector of updates [E] into a vector [N] at a column [E, 1] of start
    words: no window axis, the one operand axis inserted and indexed. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window of update e starts at the start word of e, read signed … -/
theorem vecScatter_start (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0: the one operand axis is an inserted axis. -/
theorem vecScatter_window (e : Fin E) :
    (vecScatter N E wf).window (ix1 e) 0 = 0 := by
  unfold ScatterDims.window
  rw [dif_neg]
  show (0 : Fin 1) ∉ (List.finRange 1).filter (· ∉ [(0 : Fin 1)])
  decide

/-- Update e lands at entry d exactly when the start word of e, read signed, is d. -/
theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start, vecScatter_window] at h0
    constructor
    · intro hf
      have e0 := congrArg (fun f => (f 0).val) hf
      simp only [vecScatter_start, vecScatter_window] at e0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start, vecScatter_window]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start, vecScatter_window]
        have := d.isLt
        omega

/-- THE ACCUMULATING VECTOR SCATTER AT ENTRY d: the operand's entry plus the sum, over the updates whose start word
    read signed is d, of the update. -/
theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Cert.Hand.VecScatter

end
-- ==== Proof.KernelHost.lean ====
/-
  What the host operations before the matrix product leave in its two operands, as functions of the arguments.

  The left operand is the input with its two leading axes merged. The right operand is a 4096 × 4096 matrix P built
  from four tables of 4096 entries (two of source features, two of coefficients): each table starts from a default
  and is overwritten, first at the slots column 0 of the output table names, then at the slots its column 1 names,
  later pairs over earlier ones; P gets, in column k, the first coefficient of slot k in the row the first feature
  table names and the second coefficient in the row the second names. So column k of P is decided by the LAST pair
  writing slot k in column 1, failing that the last in column 0, failing that it is the unit column.
-/
import proofs.«429514_j12232066859560_2_alg».proof.Proof.Gen.KernelIdeal.Frame
import proofs.«429514_j12232066859560_2_alg».proof.Proof.Spec
import proofs.«429514_j12232066859560_2_alg».proof.Proof.LibScatterSet
import proofs.«429514_j12232066859560_2_alg».proof.Proof.LibScatterDims
import proofs.«429514_j12232066859560_2_alg».proof.Proof.LibVecScatterAdd
import Idealize.ShloMosaic.Lib.StableHlo.Run
import Idealize.ShloMosaic.Lib.Pipeline.Value
import Idealize.ShloMosaic.Lib.ValueLayout
import Idealize.ShloMosaic.Lib.IdealHost

set_option maxRecDepth 16384

noncomputable section

open scoped BigOperators

namespace Cert.KernelIdeal.HostVal

open Cert.KernelIdeal Cert.KernelIdeal.Gen Idealize.ShloMosaic Idealize.ShloMosaic.ValueIdx Cert.Hand.Spec
open Cert.Hand.ScatterSet Cert.Hand.ScatterDims Cert.Hand.VecScatter
open Idealize.ShloMosaic.TcCoe Idealize.SL.Sem

/-! ## The pieces the tables are made of, read at an index -/

section Parts

variable {α : Type}

/-- Column 0 of a [2048, 2] table of words, as a vector. -/
def colA (x : IVec S2048x2 32) : IVec S2048 32 :=
  fun i => shapeCast S2048 (extractStridedSlice S2048x1 ![0, 0] x slices_S2048x2_S2048x1_0_0) shapeCasts_S2048x1_S2048 i

/-- Column 1 of a [2048, 2] table of words, as a vector. -/
def colB (x : IVec S2048x2 32) : IVec S2048 32 :=
  fun i => shapeCast S2048 (extractStridedSlice S2048x1 ![0, 1] x slices_S2048x2_S2048x1_0_1) shapeCasts_S2048x1_S2048 i

theorem colA_apply (x : IVec S2048x2 32) (e : Fin 2048) : colA x (ix1 e) = x (ix2 e 0) := by
  unfold colA
  refine (shapeCast_apply _ _ (ix1 e) (ix2 e (0 : Fin 1)) ?_).trans ?_
  · rw [Shape.rowMajor_val_two, Shape.rowMajor_val_one]
    show e.val * 1 + 0 = e.val
    omega
  · exact slice2_axis1_apply 0 x _ e (0 : Fin 1) (0 : Fin 2) rfl

theorem colB_apply (x : IVec S2048x2 32) (e : Fin 2048) : colB x (ix1 e) = x (ix2 e 1) := by
  unfold colB
  refine (shapeCast_apply _ _ (ix1 e) (ix2 e (0 : Fin 1)) ?_).trans ?_
  · rw [Shape.rowMajor_val_two, Shape.rowMajor_val_one]
    show e.val * 1 + 0 = e.val
    omega
  · exact slice2_axis1_apply 1 x _ e (0 : Fin 1) (1 : Fin 2) rfl

/-- The wrap of a negative index into an axis of 4096 entries, on a vector of words of any shape. -/
def wrapV (s : Shape) (h : S_.BroadcastsInDim s ![]) (v : IVec s 32) : IVec s 32 :=
  select (cmpi .slt v (broadcastInDim s ![] h (constantI S_ 32 0#32)))
    (addi v (broadcastInDim s ![] h (constantI S_ 32 4096#32))) v

theorem wrapV_apply (s : Shape) (h : S_.BroadcastsInDim s ![]) (v : IVec s 32) (i : s.Idx) :
    wrapV s h v i = wrapE (v i) := rfl

/-- The start words of a scatter of 2048 updates: the wrapped words as a [2048, 1] column. -/
def key (v : IVec S2048 32) : IVec S2048x1 32 :=
  broadcastInDim S2048x1 ![0] bcast_S2048_S2048x1_0 (wrapV S2048 bcast_S_S2048 v)

theorem key_apply (v : IVec S2048 32) (e : Fin 2048) : key v (ix2 e 0) = wrapE (v (ix1 e)) := by
  unfold key
  refine (broadcastInDim_apply _ _ _ (ix2 e (0 : Fin 1)) (ix1 e) ?_).trans (wrapV_apply _ _ _ _)
  intro a
  match a with
  | ⟨0, _⟩ => rfl

end Parts

/-! ## A table of 4096 entries written in two rounds -/

section Table

variable {α : Type}

/-- One round at slot k when update e₀ is the last one landing there: it leaves update e₀. -/
theorem set_last (x : S4096.Idx → α) (K : IVec S2048x1 32) (u : S2048.Idx → α) (k : Fin 4096) (e₀ : Fin 2048)
    (h : (K (ix2 e₀ 0)).toInt = (k.val : ℤ)) (hl : ∀ e : Fin 2048, e₀ < e → ¬(K (ix2 e 0)).toInt = (k.val : ℤ)) :
    Host.scatter scatter_S4096_S2048x1_S2048_n_0_0_1 (fun _ b => b) x K u (ix1 k) = u (ix1 e₀) := by
  refine scatter_set_last (vecScatter 4096 2048 scatter_S4096_S2048x1_S2048_n_0_0_1_wf) x K u (ix1 k) (ix1 e₀)
    ((vecScatter_resultIdx_iff _ K e₀ k).2 h) ?_
  intro j hj
  obtain ⟨e, rfl⟩ : ∃ e : Fin 2048, j = ix1 e := ⟨j 0, eq_ix1 j⟩
  rw [Shape.rowMajor_val_one, Shape.rowMajor_val_one] at hj
  rw [Ne, vecScatter_resultIdx_iff]
  exact hl e hj

/-- One round at a slot no update lands on: the slot keeps what it had. -/
theorem set_none (x : S4096.Idx → α) (K : IVec S2048x1 32) (u : S2048.Idx → α) (k : Fin 4096)
    (h : ∀ e : Fin 2048, ¬(K (ix2 e 0)).toInt = (k.val : ℤ)) :
    Host.scatter scatter_S4096_S2048x1_S2048_n_0_0_1 (fun _ b => b) x K u (ix1 k) = x (ix1 k) := by
  refine scatter_set_none (vecScatter 4096 2048 scatter_S4096_S2048x1_S2048_n_0_0_1_wf) x K u (ix1 k) ?_
  intro j
  obtain ⟨e, rfl⟩ : ∃ e : Fin 2048, j = ix1 e := ⟨j 0, eq_ix1 j⟩
  rw [Ne, vecScatter_resultIdx_iff]
  exact h e

/-- A table: the default, overwritten at the slots the words `v0` name by the values `u0`, then at the slots the
    words `v1` name by the values `u1`. -/
def table (dflt : S4096.Idx → α) (v0 v1 : IVec S2048 32) (u0 u1 : S2048.Idx → α) : S4096.Idx → α :=
  Host.scatter scatter_S4096_S2048x1_S2048_n_0_0_1 (fun _ b => b)
    (Host.scatter scatter_S4096_S2048x1_S2048_n_0_0_1 (fun _ b => b) dflt (key v0) u0) (key v1) u1

variable (dflt : S4096.Idx → α) (v0 v1 : IVec S2048 32) (u0 u1 : S2048.Idx → α) (k : Fin 4096)

/-- Slot k of a table whose second round writes it, last by pair e₀. -/
theorem table_last1 (e₀ : Fin 2048) (h : (wrapE (v1 (ix1 e₀))).toInt = (k.val : ℤ))
    (hl : ∀ e : Fin 2048, e₀ < e → ¬(wrapE (v1 (ix1 e))).toInt = (k.val : ℤ)) :
    table dflt v0 v1 u0 u1 (ix1 k) = u1 (ix1 e₀) := by
  unfold table
  refine set_last _ _ _ k e₀ ?_ ?_
  · rw [key_apply]; exact h
  · intro e he; rw [key_apply]; exact hl e he

/-- Slot k of a table whose second round does not write it and whose first round does, last by pair e₀. -/
theorem table_last0 (e₀ : Fin 2048) (h1 : ∀ e : Fin 2048, ¬(wrapE (v1 (ix1 e))).toInt = (k.val : ℤ))
    (h : (wrapE (v0 (ix1 e₀))).toInt = (k.val : ℤ))
    (hl : ∀ e : Fin 2048, e₀ < e → ¬(wrapE (v0 (ix1 e))).toInt = (k.val : ℤ)) :
    table dflt v0 v1 u0 u1 (ix1 k) = u0 (ix1 e₀) := by
  unfold table
  rw [set_none _ _ _ k (fun e => by rw [key_apply]; exact h1 e)]
  refine set_last _ _ _ k e₀ ?_ ?_
  · rw [key_apply]; exact h
  · intro e he; rw [key_apply]; exact hl e he

/-- Slot k of a table neither round writes: the default. -/
theorem table_none (h1 : ∀ e : Fin 2048, ¬(wrapE (v1 (ix1 e))).toInt = (k.val : ℤ))
    (h0 : ∀ e : Fin 2048, ¬(wrapE (v0 (ix1 e))).toInt = (k.val : ℤ)) :
    table dflt v0 v1 u0 u1 (ix1 k) = dflt (ix1 k) := by
  unfold table
  rw [set_none _ _ _ k (fun e => by rw [key_apply]; exact h1 e),
    set_none _ _ _ k (fun e => by rw [key_apply]; exact h0 e)]

end Table

/-! ## The matrix: two accumulating scatters of 4096 updates, one per column -/

section Matrix

/-- A vector of 4096 words as a [4096, 1] column, read at a row. -/
theorem bcol_apply (v : IVec S4096 32) (e : Fin 4096) :
    broadcastInDim S4096x1 ![0] bcast_S4096_S4096x1_0 v (ix2 e 0) = v (ix1 e) := by
  refine broadcastInDim_apply _ _ _ (ix2 e (0 : Fin 1)) (ix1 e) ?_
  intro a
  match a with
  | ⟨0, _⟩ => rfl

/-- Two [4096, 1] columns of words side by side. -/
def concat2 (a b : IVec S4096x1 32) : IVec S4096x2 32 :=
  concatenate S4096x2 1 [⟨S4096x1, a⟩, ⟨S4096x1, b⟩] concatenates_S4096x1_S4096x1_S4096x2_d1

theorem concat2_def (a b : IVec S4096x1 32) :
    concatenate S4096x2 1 [⟨S4096x1, a⟩, ⟨S4096x1, b⟩] concatenates_S4096x1_S4096x1_S4096x2_d1 = concat2 a b := rfl

/-- The (row, column) words of the 4096 updates: update e goes to the row its wrapped table entry names, in the
    column its own wrapped number names. -/
def rowcol (t : IVec S4096 32) : IVec S4096x2 32 :=
  concat2 (broadcastInDim S4096x1 ![0] bcast_S4096_S4096x1_0 (wrapV S4096 bcast_S_S4096 t))
    (broadcastInDim S4096x1 ![0] bcast_S4096_S4096x1_0 (wrapV S4096 bcast_S_S4096 (iotaInDim S4096 32 0)))

theorem rowcol_row (t : IVec S4096 32) (e : Fin 4096) : rowcol t (ix2 e 0) = wrapE (t (ix1 e)) := by
  unfold rowcol concat2
  refine (concatenate_pair_apply_left (t := S4096x2) (s₁ := S4096x1) (s₂ := S4096x1) (1 : Fin 2) _ _ _ (ix2 e (0 : Fin 2)) rfl
    (ix2 e (0 : Fin 1)) ?_).trans ?_
  · intro b
    match b with
    | ⟨0, _⟩ => rfl
    | ⟨1, _⟩ => rfl
  · rw [bcol_apply]; rfl

theorem rowcol_col (t : IVec S4096 32) (e : Fin 4096) : rowcol t (ix2 e 1) = wrapE (BitVec.ofNat 32 e.val) := by
  unfold rowcol concat2
  refine (concatenate_pair_apply_right (t := S4096x2) (s₁ := S4096x1) (s₂ := S4096x1) (1 : Fin 2) _ _ _ (ix2 e (1 : Fin 2)) rfl rfl
    (ix2 e (0 : Fin 1)) ?_ rfl).trans ?_
  · intro b hb
    match b with
    | ⟨0, _⟩ => rfl
    | ⟨1, _⟩ => exact absurd rfl hb
  · rw [bcol_apply]; rfl

/-- A slot number below 4096 is its own wrap. -/
theorem wrapE_ofNat (e : Fin 4096) : (wrapE (BitVec.ofNat 32 e.val)).toInt = (e.val : ℤ) := by
  have he := e.isLt
  have hn : (BitVec.ofNat 32 e.val).toNat = e.val := by rw [BitVec.toNat_ofNat]; omega
  have hi : (BitVec.ofNat 32 e.val).toInt = (e.val : ℤ) := by
    rw [BitVec.toInt_eq_toNat_of_lt (by rw [hn]; omega), hn]
  have hs : (BitVec.ofNat 32 e.val).slt 0#32 = false := by
    rw [BitVec.slt_eq_decide, hi, BitVec.toInt_zero]
    exact decide_eq_false (by omega)
  have hw : wrapE (BitVec.ofNat 32 e.val) = BitVec.ofNat 32 e.val := by
    unfold wrapE Scalar.select IntOp.cmpi
    simp only [hs]
    rfl
  rw [hw, hi]

/-- One accumulating scatter read at (i, k): only update k lands in column k, in the row its wrapped table entry
    names. -/
theorem point_add (x : FVec Ideal S4096x4096 .f32) (t : IVec S4096 32) (u : FVec Ideal S4096 .f32) (i k : Fin 4096) :
    Host.scatterAdd (F := Ideal) scatter_S4096x4096_S4096x2_S4096_n_01_01_1 x (rowcol t) u (ix2 i k)
      = x (ix2 i k) + if (wrapE (t (ix1 k))).toInt = (i.val : ℤ) then u (ix1 k) else 0 := by
  show Ideal.hostScatterAdd (pointScatter 4096 4096 4096 scatter_S4096x4096_S4096x2_S4096_n_01_01_1_wf) x (rowcol t) u (ix2 i k) = _
  unfold Ideal.hostScatterAdd
  congr 1
  rw [Finset.sum_filter, sum_idx1]
  simp only [pointScatter_resultIdx_iff, rowcol_row, rowcol_col, wrapE_ofNat]
  rw [Finset.sum_eq_single k]
  · simp only [and_true]
  · intro e _ hne
    rw [if_neg]
    intro h
    exact hne (Fin.ext (by exact_mod_cast h.2))
  · intro h
    exact absurd (Finset.mem_univ k) h

/-- The matrix from its four tables: zeros, plus the first coefficients at the rows the first features name, plus
    the second coefficients at the rows the second features name, narrowed (exactly) to the product's format. -/
def Pmat (idxA idxB : IVec S4096 32) (coefA coefB : FVec Ideal S4096 .f32) : FVec Ideal S4096x4096 .bf16 :=
  truncf .bf16
    (Host.scatterAdd scatter_S4096x4096_S4096x2_S4096_n_01_01_1
      (Host.scatterAdd scatter_S4096x4096_S4096x2_S4096_n_01_01_1
        (broadcastInDim S4096x4096 ![] bcast_S_S4096x4096 (constant S_ .f32 0x00000000#32)) (rowcol idxA) coefA)
      (rowcol idxB) coefB) bitsLt_bf16_f32

theorem Pmat_apply (idxA idxB : IVec S4096 32) (coefA coefB : FVec Ideal S4096 .f32) (i k : Fin 4096) :
    (Pmat idxA idxB coefA coefB (ix2 i k) : EReal)
      = (if (wrapE (idxA (ix1 k))).toInt = (i.val : ℤ) then coefA (ix1 k) else 0)
        + (if (wrapE (idxB (ix1 k))).toInt = (i.val : ℤ) then coefB (ix1 k) else 0) := by
  unfold Pmat
  rw [truncf_apply, point_add, point_add, broadcastInDim_scalar_apply, constant_apply, Ideal.ofBits_zero_f32, zero_add]

end Matrix

/-! ## The four tables and the two operands, from the arguments -/

section Operands

/-- A comparison of two entries' numbers read as integers is the comparison of the entries. -/
theorem ite_cast (g i : Fin 4096) (a : EReal) :
    (if (g.val : ℤ) = (i.val : ℤ) then a else 0) = if i = g then a else 0 := by
  by_cases h : i = g
  · subst h; rw [if_pos rfl, if_pos rfl]
  · rw [if_neg h, if_neg]
    intro h'
    exact h (Fin.ext (by exact_mod_cast h'.symm))

section Slots

variable {α : Type} (dflt : S4096.Idx → α) (u0 u1 : S2048.Idx → α) (out : IVec S2048x2 32) (k : Fin 4096)

/-- A table keyed by the output table's two columns, at a slot whose last writer in column 1 is pair e₀. -/
theorem tab1 (e₀ : Fin 2048) (h1 : Last out 1 k e₀) :
    table dflt (colA out) (colB out) u0 u1 (ix1 k) = u1 (ix1 e₀) :=
  table_last1 _ _ _ _ _ k e₀ (by rw [colB_apply]; exact h1.1) (fun e he => by rw [colB_apply]; exact h1.2 e he)

/-- … at a slot column 1 does not write, whose last writer in column 0 is pair e₀. -/
theorem tab0 (e₀ : Fin 2048) (h1 : ∀ e, ¬Hit out 1 k e) (h0 : Last out 0 k e₀) :
    table dflt (colA out) (colB out) u0 u1 (ix1 k) = u0 (ix1 e₀) :=
  table_last0 _ _ _ _ _ k e₀ (fun e => by rw [colB_apply]; exact h1 e) (by rw [colA_apply]; exact h0.1)
    (fun e he => by rw [colA_apply]; exact h0.2 e he)

/-- … at a slot neither column writes. -/
theorem tabn (h1 : ∀ e, ¬Hit out 1 k e) (h0 : ∀ e, ¬Hit out 0 k e) :
    table dflt (colA out) (colB out) u0 u1 (ix1 k) = dflt (ix1 k) :=
  table_none _ _ _ _ _ k (fun e => by rw [colB_apply]; exact h1 e) (fun e => by rw [colA_apply]; exact h0 e)

end Slots

variable (ang : FVec Ideal S2048 .f32) (src out : IVec S2048x2 32)

/-- The first source feature of each slot: its own number, overwritten by the pairs' column 0, then their column 1. -/
def idxA : IVec S4096 32 := table (iotaInDim S4096 32 0) (colA out) (colB out) (colA src) (colB src)
/-- The second source feature of each slot: 0, overwritten by the pairs' column 1, then their column 0. -/
def idxB : IVec S4096 32 :=
  table (broadcastInDim S4096 ![] bcast_S_S4096 (constantI S_ 32 0#32)) (colA out) (colB out) (colB src) (colA src)
/-- The first coefficient of each slot: 1, overwritten by the cosines in both rounds. -/
def coefA : FVec Ideal S4096 .f32 :=
  table (broadcastInDim S4096 ![] bcast_S_S4096 (constant (F := Ideal) S_ .f32 0x3F800000#32)) (colA out) (colB out)
    (Host.cos ang) (Host.cos ang)
/-- The second coefficient of each slot: 0, overwritten by minus the sines, then by the sines. -/
def coefB : FVec Ideal S4096 .f32 :=
  table (broadcastInDim S4096 ![] bcast_S_S4096 (constant (F := Ideal) S_ .f32 0x00000000#32)) (colA out) (colB out)
    (Host.negf (Host.sin ang)) (Host.sin ang)

variable (m : (ℓ : Loc nD τ sig) → Buf (Elt Ideal) ℓ)

/-- Core c's arguments: the input, the angles, the source pairs, the output pairs. -/
abbrev x0 (c : Dev nD) : S8x1024x4096.Idx → EReal := m ((c : Thread nD τ).loc main_arg0)
abbrev x1 (c : Dev nD) : S2048.Idx → EReal := m ((c : Thread nD τ).loc main_arg1)
abbrev x2 (c : Dev nD) : S2048x2.Idx → BitVec 32 := m ((c : Thread nD τ).loc main_arg2)
abbrev x3 (c : Dev nD) : S2048x2.Idx → BitVec 32 := m ((c : Thread nD τ).loc main_arg3)
/-- The product's two operands as the host operations leave them on core c. -/
abbrev lhsArr (c : Dev nD) : S8192x4096.Idx → EReal := Gen.V m c main_v106
abbrev pArr (c : Dev nD) : S4096x4096.Idx → EReal := Gen.V m c main_v105

set_option maxHeartbeats 4000000 in
/-- The right operand on core c is the matrix of the four tables of core c's arguments. -/
theorem pArr_eq (c : Dev nD) :
    pArr m c = Pmat (idxA (x2 m c) (x3 m c)) (idxB (x2 m c) (x3 m c)) (coefA (x1 m c) (x3 m c)) (coefB (x1 m c) (x3 m c)) := by
  show StableHlo.after hostOps0 (fun b => m (c, b)) (Proc.devRef .tc main_v105) = _
  -- the operations' results, outermost first; the two columns of a concatenation are reached once it is folded
  after_results_simp
  simp only [concat2_def]
  after_results_simp
  unfold Pmat idxA idxB coefA coefB table key rowcol wrapV colA colB x1 x2 x3
  rfl

set_option maxHeartbeats 4000000 in
/-- The left operand on core c is the input with its two leading axes merged. -/
theorem lhsArr_eq (c : Dev nD) :
    lhsArr m c = fun i => shapeCast S8192x4096 (x0 m c) shapeCasts_S8x1024x4096_S8192x4096 i := by
  show StableHlo.after hostOps0 (fun b => m (c, b)) (Proc.devRef .tc main_v106) = _
  after_results_simp
  rfl

end Operands

/-! ## The two operands read at an index -/

section Targets

variable (m : (ℓ : Loc nD τ sig) → Buf (Elt Ideal) ℓ)

/-- Row (a, b) of the left operand is row b of batch a of the input. -/
theorem lhs_value (c : Dev nD) (a : Fin 8) (b : Fin 1024) (q : Fin 4096) :
    lhsArr m c (ix2 ⟨a.val * 1024 + b.val, by omega⟩ q) = x0 m c (ix3 a b q) := by
  rw [lhsArr_eq]
  refine shapeCast_apply _ _ _ (ix3 a b q) ?_
  rw [Shape.rowMajor_val_three, Shape.rowMajor_val_two]
  rfl

/-- Column k of P when pair e₀ is the last of column 1 writing slot k: the cosine in the row of the pair's second
    source feature, the sine in the row of its first. -/
theorem P_case1 (c : Dev nD) (k : Fin 4096) (e₀ : Fin 2048) (h1 : Last (x3 m c) 1 k e₀) (g0 g1 : Fin 4096)
    (hg0 : (wrapE (x2 m c (ix2 e₀ 0))).toInt = (g0.val : ℤ)) (hg1 : (wrapE (x2 m c (ix2 e₀ 1))).toInt = (g1.val : ℤ))
    (i : Fin 4096) :
    pArr m c (ix2 i k)
      = (if i = g1 then Ideal.cos (x1 m c (ix1 e₀)) else 0) + (if i = g0 then Ideal.sin (x1 m c (ix1 e₀)) else 0) := by
  rw [pArr_eq, Pmat_apply]
  unfold idxA idxB coefA coefB
  rw [tab1 _ _ _ _ k e₀ h1, tab1 _ _ _ _ k e₀ h1, tab1 _ _ _ _ k e₀ h1, tab1 _ _ _ _ k e₀ h1, colB_apply, colA_apply,
    hg1, hg0, ite_cast, ite_cast]
  rfl

/-- Column k of P when column 1 does not write slot k and pair e₀ is the last of column 0 writing it: the cosine in
    the row of the pair's first source feature, minus the sine in the row of its second. -/
theorem P_case0 (c : Dev nD) (k : Fin 4096) (e₀ : Fin 2048) (h1 : ∀ e, ¬Hit (x3 m c) 1 k e) (h0 : Last (x3 m c) 0 k e₀)
    (g0 g1 : Fin 4096)
    (hg0 : (wrapE (x2 m c (ix2 e₀ 0))).toInt = (g0.val : ℤ)) (hg1 : (wrapE (x2 m c (ix2 e₀ 1))).toInt = (g1.val : ℤ))
    (i : Fin 4096) :
    pArr m c (ix2 i k)
      = (if i = g0 then Ideal.cos (x1 m c (ix1 e₀)) else 0) + (if i = g1 then -(Ideal.sin (x1 m c (ix1 e₀))) else 0) := by
  rw [pArr_eq, Pmat_apply]
  unfold idxA idxB coefA coefB
  rw [tab0 _ _ _ _ k e₀ h1 h0, tab0 _ _ _ _ k e₀ h1 h0, tab0 _ _ _ _ k e₀ h1 h0, tab0 _ _ _ _ k e₀ h1 h0, colA_apply,
    colB_apply, hg1, hg0, ite_cast, ite_cast]
  rfl

/-- Column k of P when no pair writes slot k: the unit column. -/
theorem P_casen (c : Dev nD) (k : Fin 4096) (h1 : ∀ e, ¬Hit (x3 m c) 1 k e) (h0 : ∀ e, ¬Hit (x3 m c) 0 k e)
    (i : Fin 4096) :
    pArr m c (ix2 i k) = if i = k then (1 : EReal) else 0 := by
  rw [pArr_eq, Pmat_apply]
  unfold idxA idxB coefA coefB
  rw [tabn _ _ _ _ k h1 h0, tabn _ _ _ _ k h1 h0, tabn _ _ _ _ k h1 h0, tabn _ _ _ _ k h1 h0, iotaInDim_apply,
    broadcastInDim_scalar_apply, broadcastInDim_scalar_apply, broadcastInDim_scalar_apply, constant_apply,
    constant_apply, Ideal.ofBits_one_f32, Ideal.ofBits_zero_f32, ite_self, add_zero]
  show (if (wrapE (BitVec.ofNat 32 k.val)).toInt = (i.val : ℤ) then (1 : EReal) else 0) = _
  rw [wrapE_ofNat, ite_cast]

end Targets

end Cert.KernelIdeal.HostVal

end
-- ==== Proof.RefValue.lean ====
/-
  The reference's value at an element of the result.

  The reference rotates pairs of features: with c = cos, s = sin of the angle of pair e, and xi, xj the input read at
  the pair's two (wrapped) feature words, it forms yi = c*xi − s*xj and yj = c*xj + s*xi, then writes yi at the
  pair's first output word and after that yj at the pair's second output word, each as a scatter-set along the
  feature axis over all pairs in order. Read at (a, b, k): if some pair's second output word is k, the LAST such pair
  decides and the slot holds its yj; failing any, if some pair's first output word is k, the last such pair decides
  and the slot holds its yi; failing any, the slot keeps the input.

  The steps: the four index columns at a pair are the wrapped words of the two tables; the two gathers read the input
  at the wrapped words; yi and yj at an element; one scatter-set along the last axis read at an element (a last pair
  writes it / none does), for any operand and updates; the three cases.
-/
import proofs.«429514_j12232066859560_2_alg».proof.Proof.Gen.ReferenceIdeal.Read
import proofs.«429514_j12232066859560_2_alg».proof.Proof.Spec
import proofs.«429514_j12232066859560_2_alg».proof.Proof.LibScatterSet
import proofs.«429514_j12232066859560_2_alg».proof.Proof.LibScatterDims
import Idealize.ShloMosaic.Lib.ValueIdx
import Idealize.ShloMosaic.Lib.Pipeline.Value
import Idealize.ShloMosaic.PureOps.Ideal

noncomputable section

namespace Cert.ReferenceIdeal.RefVal

open Cert.ReferenceIdeal Cert.ReferenceIdeal.Gen Cert.ReferenceIdeal.Read Idealize.ShloMosaic Idealize.ShloMosaic.ValueIdx Cert.Hand.Spec

variable {F : FTy → Type} [FloatOps F]

/-! ## The four index columns at a pair -/

theorem v9_at (x2 : (⟨S2048x2, .i32⟩ : BufTy).Contents (Elt F)) (e : Fin 2048) :
    val_main_v9 (F := F) x2 (ix2 e 0) = wrapE (x2 (ix2 e 0)) := by
  rw [val_main_v9_apply, val_main_v8_apply, val_main_v5_apply, val_main_v7_apply, val_main_v3_apply,
    val_main_v2_apply, val_main_v4_apply, val_main_c_apply, val_main_v6_apply, val_main_c_0_apply]
  have hi : idx_main_v2 (idx_main_v3 (idx_main_v9 (ix2 e 0))) = ix2 e 0 := by
    funext a
    match a with
    | ⟨0, _⟩ => exact Fin.ext (Nat.div_one _)
    | ⟨1, _⟩ => rfl
  rw [hi]; rfl

theorem v18_at (x2 : (⟨S2048x2, .i32⟩ : BufTy).Contents (Elt F)) (e : Fin 2048) :
    val_main_v18 (F := F) x2 (ix2 e 0) = wrapE (x2 (ix2 e 1)) := by
  rw [val_main_v18_apply, val_main_v17_apply, val_main_v14_apply, val_main_v16_apply, val_main_v12_apply,
    val_main_v11_apply, val_main_v13_apply, val_main_c_1_apply, val_main_v15_apply, val_main_c_2_apply]
  have hi : idx_main_v11 (idx_main_v12 (idx_main_v18 (ix2 e 0))) = ix2 e 1 := by
    funext a
    match a with
    | ⟨0, _⟩ => exact Fin.ext (Nat.div_one _)
    | ⟨1, _⟩ => rfl
  rw [hi]; rfl

theorem v41_at (x3 : (⟨S2048x2, .i32⟩ : BufTy).Contents (Elt F)) (e : Fin 2048) :
    val_main_v41 (F := F) x3 (ix2 e 0) = wrapE (x3 (ix2 e 0)) := by
  rw [val_main_v41_apply, val_main_v40_apply, val_main_v37_apply, val_main_v39_apply, val_main_v35_apply,
    val_main_v34_apply, val_main_v36_apply, val_main_c_3_apply, val_main_v38_apply, val_main_c_4_apply]
  have hi : idx_main_v34 (idx_main_v35 (idx_main_v41 (ix2 e 0))) = ix2 e 0 := by
    funext a
    match a with
    | ⟨0, _⟩ => exact Fin.ext (Nat.div_one _)
    | ⟨1, _⟩ => rfl
  rw [hi]; rfl

theorem v50_at (x3 : (⟨S2048x2, .i32⟩ : BufTy).Contents (Elt F)) (e : Fin 2048) :
    val_main_v50 (F := F) x3 (ix2 e 0) = wrapE (x3 (ix2 e 1)) := by
  rw [val_main_v50_apply, val_main_v49_apply, val_main_v46_apply, val_main_v48_apply, val_main_v44_apply,
    val_main_v43_apply, val_main_v45_apply, val_main_c_5_apply, val_main_v47_apply, val_main_c_6_apply]
  have hi : idx_main_v43 (idx_main_v44 (idx_main_v50 (ix2 e 0))) = ix2 e 1 := by
    funext a
    match a with
    | ⟨0, _⟩ => exact Fin.ext (Nat.div_one _)
    | ⟨1, _⟩ => rfl
  rw [hi]; rfl

/-! ## The two gathers at an element -/

theorem v10_at (x0 : (⟨S8x1024x4096, .f32⟩ : BufTy).Contents (Elt F)) (x2 : (⟨S2048x2, .i32⟩ : BufTy).Contents (Elt F))
    (a : Fin 8) (b : Fin 1024) (e : Fin 2048) (g : Fin 4096)
    (hg : (wrapE (x2 (ix2 e 0))).toInt = (g.val : ℤ)) :
    val_main_v10 (F := F) x0 x2 (ix3 a b e) = x0 (ix3 a b g) := by
  unfold val_main_v10
  exact Cert.Hand.ScatterDims.lastGather_apply
    Facts₀.gather_S8x1024x4096_S2048x1_S8x1024x2048_01_2_n_n_2_1_810241_wf x0 (val_main_v9 (F := F) x2) a b e g
    (by rw [v9_at]; exact hg)

theorem v19_at (x0 : (⟨S8x1024x4096, .f32⟩ : BufTy).Contents (Elt F)) (x2 : (⟨S2048x2, .i32⟩ : BufTy).Contents (Elt F))
    (a : Fin 8) (b : Fin 1024) (e : Fin 2048) (g : Fin 4096)
    (hg : (wrapE (x2 (ix2 e 1))).toInt = (g.val : ℤ)) :
    val_main_v19 (F := F) x0 x2 (ix3 a b e) = x0 (ix3 a b g) := by
  unfold val_main_v19
  exact Cert.Hand.ScatterDims.lastGather_apply
    Facts₀.gather_S8x1024x4096_S2048x1_S8x1024x2048_01_2_n_n_2_1_810241_wf x0 (val_main_v18 (F := F) x2) a b e g
    (by rw [v18_at]; exact hg)

/-! ## The two rotated columns at an element -/

theorem v26_at (x0 : (⟨S8x1024x4096, .f32⟩ : BufTy).Contents (Elt Ideal)) (x1 : (⟨S2048, .f32⟩ : BufTy).Contents (Elt Ideal))
    (x2 : (⟨S2048x2, .i32⟩ : BufTy).Contents (Elt Ideal))
    (a : Fin 8) (b : Fin 1024) (e : Fin 2048) (g0 g1 : Fin 4096)
    (hg0 : (wrapE (x2 (ix2 e 0))).toInt = (g0.val : ℤ)) (hg1 : (wrapE (x2 (ix2 e 1))).toInt = (g1.val : ℤ)) :
    val_main_v26 (F := Ideal) x0 x1 x2 (ix3 a b e)
      = Ideal.cos (x1 (ix1 e)) * x0 (ix3 a b g0) - Ideal.sin (x1 (ix1 e)) * x0 (ix3 a b g1) := by
  rw [val_main_v26_apply, val_main_v22_apply, val_main_v25_apply, val_main_v21_apply, val_main_v20_apply,
    val_main_v0_apply, val_main_v24_apply, val_main_v23_apply, val_main_v1_apply,
    v10_at x0 x2 a b e g0 hg0, v19_at x0 x2 a b e g1 hg1]
  have h1 : idx_main_v20 (idx_main_v21 (ix3 a b e)) = ix1 e := by
    funext d; match d with | ⟨0, _⟩ => rfl
  have h2 : idx_main_v23 (idx_main_v24 (ix3 a b e)) = ix1 e := by
    funext d; match d with | ⟨0, _⟩ => rfl
  rw [h1, h2]; rfl

theorem v33_at (x0 : (⟨S8x1024x4096, .f32⟩ : BufTy).Contents (Elt Ideal)) (x1 : (⟨S2048, .f32⟩ : BufTy).Contents (Elt Ideal))
    (x2 : (⟨S2048x2, .i32⟩ : BufTy).Contents (Elt Ideal))
    (a : Fin 8) (b : Fin 1024) (e : Fin 2048) (g0 g1 : Fin 4096)
    (hg0 : (wrapE (x2 (ix2 e 0))).toInt = (g0.val : ℤ)) (hg1 : (wrapE (x2 (ix2 e 1))).toInt = (g1.val : ℤ)) :
    val_main_v33 (F := Ideal) x0 x1 x2 (ix3 a b e)
      = Ideal.cos (x1 (ix1 e)) * x0 (ix3 a b g1) + Ideal.sin (x1 (ix1 e)) * x0 (ix3 a b g0) := by
  rw [val_main_v33_apply, val_main_v29_apply, val_main_v32_apply, val_main_v28_apply, val_main_v27_apply,
    val_main_v0_apply, val_main_v31_apply, val_main_v30_apply, val_main_v1_apply,
    v10_at x0 x2 a b e g0 hg0, v19_at x0 x2 a b e g1 hg1]
  have h1 : idx_main_v27 (idx_main_v28 (ix3 a b e)) = ix1 e := by
    funext d; match d with | ⟨0, _⟩ => rfl
  have h2 : idx_main_v30 (idx_main_v31 (ix3 a b e)) = ix1 e := by
    funext d; match d with | ⟨0, _⟩ => rfl
  rw [h1, h2]; rfl

/-! ## Two scatter-sets along the last axis, one after the other, read at an element

  `x.at[..., c0].set(u0).at[..., c1].set(u1)` at (a, b, k): the last pair of the second column whose word is k decides;
  failing any, the last pair of the first column; failing any, the operand. -/

section TwoSets

open Cert.Hand.ScatterDims Cert.Hand.ScatterSet

variable {α : Type} {A B N E w : Nat}
  (wf : ScatterDims.WF ⟨3, ![A, B, N]⟩ ⟨2, ![E, 1]⟩ ⟨3, ![A, B, E]⟩ [0, 1] [2] [2] 1)

/-- One scatter-set, a last pair writing the slot: that pair's update. -/
theorem set_last (x : (⟨3, ![A, B, N]⟩ : Shape).Idx → α) (c : IVec ⟨2, ![E, 1]⟩ w)
    (u : (⟨3, ![A, B, E]⟩ : Shape).Idx → α) (a : Fin A) (b : Fin B) (k : Fin N) (e₀ : Fin E)
    (h₀ : (c (ix2 e₀ 0)).toInt = (k.val : ℤ))
    (hl : ∀ e : Fin E, e₀ < e → (c (ix2 e 0)).toInt ≠ (k.val : ℤ)) :
    Host.scatter (lastScatter A B N E wf) (fun _ b => b) x c u (ix3 a b k) = u (ix3 a b e₀) := by
  refine scatter_set_last (lastScatter A B N E wf) x c u (ix3 a b k) (ix3 a b e₀)
    ((lastScatter_resultIdx_iff wf c a b e₀ a b k).2 ⟨rfl, rfl, h₀⟩) ?_
  intro j hlt hj
  rw [eq_ix3 j] at hlt hj
  obtain ⟨ha, hb, hk⟩ := (lastScatter_resultIdx_iff wf c (j 0) (j 1) (j 2) a b k).1 hj
  subst ha; subst hb
  exact hl (j 2) (Fin.lt_def.2 ((lastScatter_rowMajor_lt (j 0) (j 1) e₀ (j 2)).1 hlt)) hk

/-- One scatter-set, no pair writing the slot: the operand. -/
theorem set_none (x : (⟨3, ![A, B, N]⟩ : Shape).Idx → α) (c : IVec ⟨2, ![E, 1]⟩ w)
    (u : (⟨3, ![A, B, E]⟩ : Shape).Idx → α) (a : Fin A) (b : Fin B) (k : Fin N)
    (hn : ∀ e : Fin E, (c (ix2 e 0)).toInt ≠ (k.val : ℤ)) :
    Host.scatter (lastScatter A B N E wf) (fun _ b => b) x c u (ix3 a b k) = x (ix3 a b k) := by
  refine scatter_set_none (lastScatter A B N E wf) x c u (ix3 a b k) ?_
  intro j hj
  rw [eq_ix3 j] at hj
  exact hn (j 2) ((lastScatter_resultIdx_iff wf c (j 0) (j 1) (j 2) a b k).1 hj).2.2

end TwoSets

/-! ## The reference's result at an element, by which pair last writes the slot -/

/-- The program's scatter record is the last-axis scatter at these extents. -/
theorem scatter_eq :
    scatter_S8x1024x4096_S2048x1_S8x1024x2048_01_2_2_1
      = Cert.Hand.ScatterDims.lastScatter 8 1024 4096 2048 Facts₀.scatter_S8x1024x4096_S2048x1_S8x1024x2048_01_2_2_1_wf := rfl

/-- A pair of column 1 is the last to write slot k: the slot holds that pair's second rotated value. -/
theorem ref_case1 (x0 : (⟨S8x1024x4096, .f32⟩ : BufTy).Contents (Elt Ideal)) (x1 : (⟨S2048, .f32⟩ : BufTy).Contents (Elt Ideal))
    (x2 x3 : (⟨S2048x2, .i32⟩ : BufTy).Contents (Elt Ideal))
    (a : Fin 8) (b : Fin 1024) (k : Fin 4096) (e₀ : Fin 2048) (h1 : Last x3 1 k e₀) (g0 g1 : Fin 4096)
    (hg0 : (wrapE (x2 (ix2 e₀ 0))).toInt = (g0.val : ℤ)) (hg1 : (wrapE (x2 (ix2 e₀ 1))).toInt = (g1.val : ℤ)) :
    val_main_v51 (F := Ideal) x0 x1 x2 x3 (ix3 a b k)
      = Ideal.cos (x1 (ix1 e₀)) * x0 (ix3 a b g1) + Ideal.sin (x1 (ix1 e₀)) * x0 (ix3 a b g0) := by
  unfold val_main_v51
  rw [scatter_eq, set_last _ _ _ _ a b k e₀ (by rw [v50_at]; exact h1.1)
    (fun e he => by rw [v50_at]; exact h1.2 e he)]
  exact v33_at x0 x1 x2 a b e₀ g0 g1 hg0 hg1

/-- No pair of column 1 writes slot k and a pair of column 0 is the last to: that pair's first rotated value. -/
theorem ref_case0 (x0 : (⟨S8x1024x4096, .f32⟩ : BufTy).Contents (Elt Ideal)) (x1 : (⟨S2048, .f32⟩ : BufTy).Contents (Elt Ideal))
    (x2 x3 : (⟨S2048x2, .i32⟩ : BufTy).Contents (Elt Ideal))
    (a : Fin 8) (b : Fin 1024) (k : Fin 4096) (e₀ : Fin 2048) (h1 : ∀ e, ¬Hit x3 1 k e) (h0 : Last x3 0 k e₀)
    (g0 g1 : Fin 4096)
    (hg0 : (wrapE (x2 (ix2 e₀ 0))).toInt = (g0.val : ℤ)) (hg1 : (wrapE (x2 (ix2 e₀ 1))).toInt = (g1.val : ℤ)) :
    val_main_v51 (F := Ideal) x0 x1 x2 x3 (ix3 a b k)
      = Ideal.cos (x1 (ix1 e₀)) * x0 (ix3 a b g0) - Ideal.sin (x1 (ix1 e₀)) * x0 (ix3 a b g1) := by
  unfold val_main_v51
  rw [scatter_eq, set_none _ _ _ _ a b k (fun e => by rw [v50_at]; exact h1 e)]
  unfold val_main_v42
  rw [scatter_eq, set_last _ _ _ _ a b k e₀ (by rw [v41_at]; exact h0.1)
    (fun e he => by rw [v41_at]; exact h0.2 e he)]
  exact v26_at x0 x1 x2 a b e₀ g0 g1 hg0 hg1

/-- No pair of either column writes slot k: the slot keeps the input. -/
theorem ref_casen (x0 : (⟨S8x1024x4096, .f32⟩ : BufTy).Contents (Elt Ideal)) (x1 : (⟨S2048, .f32⟩ : BufTy).Contents (Elt Ideal))
    (x2 x3 : (⟨S2048x2, .i32⟩ : BufTy).Contents (Elt Ideal))
    (a : Fin 8) (b : Fin 1024) (k : Fin 4096) (h1 : ∀ e, ¬Hit x3 1 k e) (h0 : ∀ e, ¬Hit x3 0 k e) :
    val_main_v51 (F := Ideal) x0 x1 x2 x3 (ix3 a b k) = x0 (ix3 a b k) := by
  unfold val_main_v51
  rw [scatter_eq, set_none _ _ _ _ a b k (fun e => by rw [v50_at]; exact h1 e)]
  unfold val_main_v42
  rw [scatter_eq, set_none _ _ _ _ a b k (fun e => by rw [v41_at]; exact h0 e)]

end Cert.ReferenceIdeal.RefVal
end
-- ==== Proof.Bridge.lean ====
/-
  The two idealized programs compute one function: the kernel's result array is the reference's, index by index.

  Fix an output element (a, b, k). The kernel's element is the matrix product's: the sum over the 4096 source features
  k' of x0[a, b, k'] · P[k', k], and column k of P was assembled from the same "last pair writing slot k" that decides the
  reference's element:
  * some pair of column 1 of the output table writes slot k, e₀ the last: the column holds cos θ in row (pairs[e₀, 1]
    wrapped) and sin θ in row (pairs[e₀, 0] wrapped), and the reference's element is cos θ · x0[…, pairs[e₀, 1]] +
    sin θ · x0[…, pairs[e₀, 0]];
  * none of column 1 but some of column 0, e₀ the last: cos θ in row pairs[e₀, 0], − sin θ in row pairs[e₀, 1], against
    cos θ · x0[…, pairs[e₀, 0]] − sin θ · x0[…, pairs[e₀, 1]];
  * no pair writes slot k: the column is the unit column of row k, and both elements are x0[a, b, k].
  In each case the sum collapses by the two-hot law, which needs the input and the angles finite; that the wrapped
  words of `pairs` are slots needs their range. Both come from the precondition.
-/
import proofs.«429514_j12232066859560_2_alg».proof.Proof.Spec
import proofs.«429514_j12232066859560_2_alg».proof.Proof.Algebra
import proofs.«429514_j12232066859560_2_alg».proof.Proof.PreFacts
import proofs.«429514_j12232066859560_2_alg».proof.Proof.KernelRun
import proofs.«429514_j12232066859560_2_alg».proof.Proof.KernelMatmul
import proofs.«429514_j12232066859560_2_alg».proof.Proof.KernelHost
import proofs.«429514_j12232066859560_2_alg».proof.Proof.RefValue

noncomputable section

open scoped BigOperators

namespace Cert.Hand.Bridge

open Idealize.ShloMosaic Idealize.ShloMosaic.TcCoe Idealize.SL.Sem Idealize.ShloMosaic.ValueIdx
open Cert.Hand.Spec Cert.Hand.Algebra Cert.Hand.PreFacts

variable [Cert.Pre_finite_inputs.Facts]

/-- The kernel's result array is the reference's result at the same arguments, under the precondition. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    (Cert.KernelIdeal.RunVal.outArr m c : (⟨3, ![8, 1024, 4096]⟩ : Shape).Idx → EReal)
      = Cert.ReferenceIdeal.Read.val_main_v51 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨a, b, k, rfl⟩ : ∃ (a : Fin 8) (b : Fin 1024) (k : Fin 4096), i = ix3 a b k := ⟨i 0, i 1, i 2, eq_ix3 i⟩
  set x0 : (⟨3, ![8, 1024, 4096]⟩ : Shape).Idx → EReal :=
    m ((c.tc : Thread Cert.KernelIdeal.nD Cert.KernelIdeal.τ).loc Cert.KernelIdeal.main_arg0) with hx0
  set x1 : (⟨1, ![2048]⟩ : Shape).Idx → EReal :=
    m ((c.tc : Thread Cert.KernelIdeal.nD Cert.KernelIdeal.τ).loc Cert.KernelIdeal.main_arg1) with hx1
  set x2 : (⟨2, ![2048, 2]⟩ : Shape).Idx → BitVec 32 :=
    m ((c.tc : Thread Cert.KernelIdeal.nD Cert.KernelIdeal.τ).loc Cert.KernelIdeal.main_arg2) with hx2
  set x3 : (⟨2, ![2048, 2]⟩ : Shape).Idx → BitVec 32 :=
    m ((c.tc : Thread Cert.KernelIdeal.nD Cert.KernelIdeal.τ).loc Cert.KernelIdeal.main_arg3) with hx3
  have hf0 := finite_inp hpre
  have hf1 := finite_ang hpre
  -- the kernel's element as the matrix product's sum over the source features
  have hk : (Cert.KernelIdeal.RunVal.outArr m c : (⟨3, ![8, 1024, 4096]⟩ : Shape).Idx → EReal) (ix3 a b k)
      = ∑ k' : Fin 4096, x0 (ix3 a b k')
          * (Cert.KernelIdeal.Gen.V m c Cert.KernelIdeal.main_v105 : (⟨2, ![4096, 4096]⟩ : Shape).Idx → EReal) (ix2 k' k) := by
    refine (Cert.KernelIdeal.RunVal.outArr_apply m c a b k).trans ?_
    refine (Cert.KernelIdeal.MatVal.region_value m c ⟨a.val * 1024 + b.val, by omega⟩ k).trans ?_
    refine Finset.sum_congr rfl fun k' _ => ?_
    exact congrArg (· * _) (Cert.KernelIdeal.HostVal.lhs_value m c a b k')
  rw [hk]
  by_cases h1 : ∃ e, Hit x3 1 k e
  · obtain ⟨e₀, hl⟩ := exists_last x3 1 k h1
    obtain ⟨g0, hg0⟩ := pairs_slot hpre e₀ 0
    obtain ⟨g1, hg1⟩ := pairs_slot hpre e₀ 1
    rw [Cert.ReferenceIdeal.RefVal.ref_case1 x0 x1 x2 x3 a b k e₀ hl g0 g1 hg0 hg1]
    rw [Finset.sum_congr rfl fun k' _ => congrArg (x0 (ix3 a b k') * ·)
      (Cert.KernelIdeal.HostVal.P_case1 m c k e₀ hl g0 g1 hg0 hg1 k')]
    exact sum_two_hot (fun k' => x0 (ix3 a b k')) (fun _ => hf0 _) g1 g0 _ _
      (cos_finite _ (hf1 _)) (sin_finite _ (hf1 _))
  · have h1' : ∀ e, ¬Hit x3 1 k e := fun e he => h1 ⟨e, he⟩
    by_cases h0 : ∃ e, Hit x3 0 k e
    · obtain ⟨e₀, hl⟩ := exists_last x3 0 k h0
      obtain ⟨g0, hg0⟩ := pairs_slot hpre e₀ 0
      obtain ⟨g1, hg1⟩ := pairs_slot hpre e₀ 1
      rw [Cert.ReferenceIdeal.RefVal.ref_case0 x0 x1 x2 x3 a b k e₀ h1' hl g0 g1 hg0 hg1]
      rw [Finset.sum_congr rfl fun k' _ => congrArg (x0 (ix3 a b k') * ·)
        (Cert.KernelIdeal.HostVal.P_case0 m c k e₀ h1' hl g0 g1 hg0 hg1 k')]
      rw [sub_eq_add_neg_mul]
      exact sum_two_hot (fun k' => x0 (ix3 a b k')) (fun _ => hf0 _) g0 g1 _ _
        (cos_finite _ (hf1 _)) (neg_finite _ (sin_finite _ (hf1 _)))
    · have h0' : ∀ e, ¬Hit x3 0 k e := fun e he => h0 ⟨e, he⟩
      rw [Cert.ReferenceIdeal.RefVal.ref_casen x0 x1 x2 x3 a b k h1' h0']
      rw [Finset.sum_congr rfl fun k' _ => congrArg (x0 (ix3 a b k') * ·)
        (Cert.KernelIdeal.HostVal.P_casen m c k h1' h0' k')]
      exact sum_one_hot (fun k' => x0 (ix3 a b k')) k

end Cert.Hand.Bridge

end
-- ==== Proof.lean ====
/-
  A Givens rotation of feature pairs, two ways.

  The reference gathers two features per pair along the last axis of `inp` [8, 1024, 4096] (`pairs[:, 0]`,
  `pairs[:, 1]`), rotates them by the pair's angle — yi = cos θ · xi − sin θ · xj, yj = cos θ · xj + sin θ · xi — and
  writes yi to slot `outp_pairs[:, 0]` and then yj to slot `outp_pairs[:, 1]` of a copy of the input. The kernel
  never gathers: from the same tables it builds, per output slot, the two source features and their two coefficients
  (by the same two writes, so the same pair wins a slot that several pairs name, and a slot no pair names keeps
  coefficient 1 on itself), spreads them into a 4096 × 4096 matrix with at most two entries per column, and multiplies
  the input, as an [8192, 4096] matrix, by it on the matrix unit, block by block with an accumulator over the
  contraction blocks.

  Over the extended reals the two agree element by element when the inputs are finite (the matrix product's zero
  entries must annihilate, and the two-entry columns distribute) and every word of `pairs` names a feature, counting
  from either end (−4096 ≤ word < 4096): outside that range the reference's gather reads the nearest feature while
  the kernel's matrix simply has no entry. The words of `outp_pairs` are unconstrained: both programs drop a write
  whose slot does not exist, and both let the later write win.

  The three frames are the generated ones (the reference's is its generated run with the result dropped); the
  idealization rewrote nothing, so `preserves` is trivial; `algebraic` pairs the kernel's run, its result named
  (Proof/KernelRun.lean), with the reference's generated run, the two results being one function of the arguments
  (Proof/Bridge.lean).
-/
import proofs.«429514_j12232066859560_2_alg».proof.Defs
import proofs.«429514_j12232066859560_2_alg».proof.Proof.Gen.Kernel
import proofs.«429514_j12232066859560_2_alg».proof.Proof.Gen.Kernel.Skeleton
import proofs.«429514_j12232066859560_2_alg».proof.Proof.Gen.Kernel.Launch
import proofs.«429514_j12232066859560_2_alg».proof.Proof.Gen.Kernel.Points
import proofs.«429514_j12232066859560_2_alg».proof.Proof.Gen.Kernel.Frame
import proofs.«429514_j12232066859560_2_alg».proof.Proof.Gen.KernelIdeal
import proofs.«429514_j12232066859560_2_alg».proof.Proof.Gen.KernelIdeal.Skeleton
import proofs.«429514_j12232066859560_2_alg».proof.Proof.Gen.KernelIdeal.Launch
import proofs.«429514_j12232066859560_2_alg».proof.Proof.Gen.KernelIdeal.Points
import proofs.«429514_j12232066859560_2_alg».proof.Proof.Gen.KernelIdeal.Frame
import proofs.«429514_j12232066859560_2_alg».proof.Proof.Gen.ReferenceIdeal
import proofs.«429514_j12232066859560_2_alg».proof.Proof.Gen.ReferenceIdeal.Run
import proofs.«429514_j12232066859560_2_alg».proof.Proof.Gen.ReferenceIdeal.Read
import proofs.«429514_j12232066859560_2_alg».proof.Proof.Gen.Pre_finite_inputs
import proofs.«429514_j12232066859560_2_alg».proof.Proof.KernelRun
import proofs.«429514_j12232066859560_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and end with the same result array: the
    kernel's reshaped matrix product and the reference's gather–rotate–scatter are one function of the arguments. -/
theorem algebraic : Cert.algebraic_KernelIdeal_ReferenceIdeal := by
  intro m ρ m' ρ' hpre hagree
  refine ⟨fun c => Cert.KernelIdeal.RunVal.outArr m c, Cert.KernelIdeal.RunVal.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2]
  exact (Cert.Hand.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
